-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x1024x1024 : Shape := ⟨4, ![32, 3, 1024, 1024]⟩
abbrev S_ : Shape := ⟨0, ![]⟩

class Facts : Prop where
  bcast_S_S32x3x1024x1024 : S_.BroadcastsInDim S32x3x1024x1024 (![] : Fin 0 → Fin S32x3x1024x1024.rank)
  reducesTo_S32x3x1024x1024_S_d0_1_2_3 : S32x3x1024x1024.ReducesTo [0, 1, 2, 3] S_
  h_S_ : 0 < S_.numel

variable [Facts]

def fn {F : FTy → Type} [FloatOps F] (main_arg0 : FVec F S32x3x1024x1024 .f32) : IVec S_ 1 :=
  let main_v0 : FVec F S32x3x1024x1024 .f32 := Host.absf main_arg0
  let main_cst : FVec F S_ .f32 := constant S_ .f32 0x7F800000#32
  let main_v1 : FVec F S32x3x1024x1024 .f32 := broadcastInDim S32x3x1024x1024 ![] bcast_S_S32x3x1024x1024 main_cst
  let main_v2 : IVec S32x3x1024x1024 1 := cmpf .olt main_v0 main_v1
  let main_c : IVec S_ 1 := constantI S_ 1 1#1
  let main_v3 : IVec S_ 1 := (fun x v => Host.reduce IntOp.andi x v reducesTo_S32x3x1024x1024_S_d0_1_2_3 h_S_) main_v2 main_c
  main_v3
-- ==== Kernel.lean ====
abbrev S32x3x1024x1024 : Shape := ⟨4, ![32, 3, 1024, 1024]⟩
abbrev S32x3x8x8 : Shape := ⟨4, ![32, 3, 8, 8]⟩
abbrev S1x3x1024x1024 : Shape := ⟨4, ![1, 3, 1024, 1024]⟩
abbrev S1x3x8x8 : Shape := ⟨4, ![1, 3, 8, 8]⟩
abbrev S3x1024x1024 : Shape := ⟨3, ![3, 1024, 1024]⟩
abbrev S3x8x128x1024 : Shape := ⟨4, ![3, 8, 128, 1024]⟩
abbrev S3x8x1024 : Shape := ⟨3, ![3, 8, 1024]⟩
abbrev S3x8x8x128 : Shape := ⟨4, ![3, 8, 8, 128]⟩
abbrev S3x8x8 : Shape := ⟨3, ![3, 8, 8]⟩
abbrev S32x1x8x8 : Shape := ⟨4, ![32, 1, 8, 8]⟩
abbrev S32x8x8 : Shape := ⟨3, ![32, 8, 8]⟩
abbrev S_ : Shape := ⟨0, ![]⟩
abbrev S1 : Shape := ⟨1, ![1]⟩

abbrev nBuf : Space → Nat
  | .hbm => 74
  | .vmem => 8
  | .smem => 0
  | _ => 0

abbrev bufTy : (tb : Table) → Fin (tcTables nBuf tb) → BufTy
  | .hbm, ⟨0, _⟩ => ⟨S32x3x1024x1024, .f32⟩
  | .hbm, ⟨1, _⟩ => ⟨S32x3x8x8, .f32⟩
  | .hbm, ⟨2, _⟩ => ⟨S32x3x8x8, .f32⟩
  | .hbm, ⟨3, _⟩ => ⟨S32x3x8x8, .f32⟩
  | .hbm, ⟨4, _⟩ => ⟨S32x1x8x8, .f32⟩
  | .hbm, ⟨5, _⟩ => ⟨S32x8x8, .f32⟩
  | .hbm, ⟨6, _⟩ => ⟨S32x1x8x8, .f32⟩
  | .hbm, ⟨7, _⟩ => ⟨S32x8x8, .f32⟩
  | .hbm, ⟨8, _⟩ => ⟨S32x8x8, .i1⟩
  | .hbm, ⟨9, _⟩ => ⟨S32x1x8x8, .f32⟩
  | .hbm, ⟨10, _⟩ => ⟨S32x8x8, .f32⟩
  | .hbm, ⟨11, _⟩ => ⟨S32x1x8x8, .f32⟩
  | .hbm, ⟨12, _⟩ => ⟨S32x8x8, .f32⟩
  | .hbm, ⟨13, _⟩ => ⟨S32x8x8, .i1⟩
  | .hbm, ⟨14, _⟩ => ⟨S32x8x8, .i1⟩
  | .hbm, ⟨15, _⟩ => ⟨S32x1x8x8, .f32⟩
  | .hbm, ⟨16, _⟩ => ⟨S32x8x8, .f32⟩
  | .hbm, ⟨17, _⟩ => ⟨S32x1x8x8, .f32⟩
  | .hbm, ⟨18, _⟩ => ⟨S32x8x8, .f32⟩
  | .hbm, ⟨19, _⟩ => ⟨S32x8x8, .f32⟩
  | .hbm, ⟨20, _⟩ => ⟨S32x8x8, .f32⟩
  | .hbm, ⟨21, _⟩ => ⟨S_, .f32⟩
  | .hbm, ⟨22, _⟩ => ⟨S_, .f32⟩
  | .hbm, ⟨23, _⟩ => ⟨S32x8x8, .f32⟩
  | .hbm, ⟨24, _⟩ => ⟨S32x8x8, .f32⟩
  | .hbm, ⟨25, _⟩ => ⟨S32x1x8x8, .f32⟩
  | .hbm, ⟨26, _⟩ => ⟨S32x8x8, .f32⟩
  | .hbm, ⟨27, _⟩ => ⟨S32x1x8x8, .f32⟩
  | .hbm, ⟨28, _⟩ => ⟨S32x8x8, .f32⟩
  | .hbm, ⟨29, _⟩ => ⟨S32x8x8, .i1⟩
  | .hbm, ⟨30, _⟩ => ⟨S32x1x8x8, .f32⟩
  | .hbm, ⟨31, _⟩ => ⟨S32x8x8, .f32⟩
  | .hbm, ⟨32, _⟩ => ⟨S32x1x8x8, .f32⟩
  | .hbm, ⟨33, _⟩ => ⟨S32x8x8, .f32⟩
  | .hbm, ⟨34, _⟩ => ⟨S32x8x8, .i1⟩
  | .hbm, ⟨35, _⟩ => ⟨S32x8x8, .i1⟩
  | .hbm, ⟨36, _⟩ => ⟨S32x1x8x8, .f32⟩
  | .hbm, ⟨37, _⟩ => ⟨S32x8x8, .f32⟩
  | .hbm, ⟨38, _⟩ => ⟨S32x1x8x8, .f32⟩
  | .hbm, ⟨39, _⟩ => ⟨S32x8x8, .f32⟩
  | .hbm, ⟨40, _⟩ => ⟨S32x8x8, .f32⟩
  | .hbm, ⟨41, _⟩ => ⟨S32x8x8, .f32⟩
  | .hbm, ⟨42, _⟩ => ⟨S_, .f32⟩
  | .hbm, ⟨43, _⟩ => ⟨S_, .f32⟩
  | .hbm, ⟨44, _⟩ => ⟨S32x8x8, .f32⟩
  | .hbm, ⟨45, _⟩ => ⟨S32x8x8, .f32⟩
  | .hbm, ⟨46, _⟩ => ⟨S32x8x8, .f32⟩
  | .hbm, ⟨47, _⟩ => ⟨S32x1x8x8, .f32⟩
  | .hbm, ⟨48, _⟩ => ⟨S32x8x8, .f32⟩
  | .hbm, ⟨49, _⟩ => ⟨S32x1x8x8, .f32⟩
  | .hbm, ⟨50, _⟩ => ⟨S32x8x8, .f32⟩
  | .hbm, ⟨51, _⟩ => ⟨S32x8x8, .i1⟩
  | .hbm, ⟨52, _⟩ => ⟨S32x1x8x8, .f32⟩
  | .hbm, ⟨53, _⟩ => ⟨S32x8x8, .f32⟩
  | .hbm, ⟨54, _⟩ => ⟨S32x1x8x8, .f32⟩
  | .hbm, ⟨55, _⟩ => ⟨S32x8x8, .f32⟩
  | .hbm, ⟨56, _⟩ => ⟨S32x8x8, .i1⟩
  | .hbm, ⟨57, _⟩ => ⟨S32x8x8, .i1⟩
  | .hbm, ⟨58, _⟩ => ⟨S32x1x8x8, .f32⟩
  | .hbm, ⟨59, _⟩ => ⟨S32x8x8, .f32⟩
  | .hbm, ⟨60, _⟩ => ⟨S32x1x8x8, .f32⟩
  | .hbm, ⟨61, _⟩ => ⟨S32x8x8, .f32⟩
  | .hbm, ⟨62, _⟩ => ⟨S32x8x8, .f32⟩
  | .hbm, ⟨63, _⟩ => ⟨S32x8x8, .f32⟩
  | .hbm, ⟨64, _⟩ => ⟨S_, .f32⟩
  | .hbm, ⟨65, _⟩ => ⟨S_, .f32⟩
  | .hbm, ⟨66, _⟩ => ⟨S32x8x8, .f32⟩
  | .hbm, ⟨67, _⟩ => ⟨S32x8x8, .f32⟩
  | .hbm, ⟨68, _⟩ => ⟨S32x8x8, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1, .f32⟩
  | .local _ .vmem, ⟨0, _⟩ => ⟨S1x3x1024x1024, .f32⟩
  | .local _ .vmem, ⟨1, _⟩ => ⟨S1x3x1024x1024, .f32⟩
  | .local _ .vmem, ⟨2, _⟩ => ⟨S1x3x8x8, .f32⟩
  | .local _ .vmem, ⟨3, _⟩ => ⟨S1x3x8x8, .f32⟩
  | .local _ .vmem, ⟨4, _⟩ => ⟨S1x3x8x8, .f32⟩
  | .local _ .vmem, ⟨5, _⟩ => ⟨S1x3x8x8, .f32⟩
  | .local _ .vmem, ⟨6, _⟩ => ⟨S1x3x8x8, .f32⟩
  | .local _ .vmem, ⟨7, _⟩ => ⟨S1x3x8x8, .f32⟩
  | _, _ => ⟨S32x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_1 : Ref sig .tc := ⟨.hbm, 64, rfl⟩
abbrev main_call2_v0 : Ref sig .tc := ⟨.hbm, 65, rfl⟩
abbrev main_call2_v1 : Ref sig .tc := ⟨.hbm, 66, rfl⟩
abbrev main_v55 : Ref sig .tc := ⟨.hbm, 67, rfl⟩
abbrev main_v56 : Ref sig .tc := ⟨.hbm, 68, rfl⟩
abbrev main_cst_2 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x3x1024x1024_S1x3x1024x1024_0_0_0_0 : ∀ a, (![0, 0, 0, 0] : Fin 4 → Nat) a + S1x3x1024x1024.size a ≤ S1x3x1024x1024.size a
  h_S1x3x1024x1024 : 0 < S1x3x1024x1024.numel
  shapeCasts_S1x3x1024x1024_S3x1024x1024 : S1x3x1024x1024.ShapeCasts S3x1024x1024
  shapeCasts_S3x1024x1024_S3x8x128x1024 : S3x1024x1024.ShapeCasts S3x8x128x1024
  reduces_S3x8x128x1024_S3x8x1024 : S3x8x128x1024.Reduces [2] S3x8x1024
  shapeCasts_S3x8x1024_S3x8x8x128 : S3x8x1024.ShapeCasts S3x8x8x128
  reduces_S3x8x8x128_S3x8x8 : S3x8x8x128.Reduces [3] S3x8x8
  inb_S1x3x8x8_S1x3x8x8_0_0_0_0 : ∀ a, (![0, 0, 0, 0] : Fin 4 → Nat) a + S1x3x8x8.size a ≤ S1x3x8x8.size a
  h_S1x3x8x8 : 0 < S1x3x8x8.numel
  shapeCasts_S1x3x8x8_S3x8x8 : S1x3x8x8.ShapeCasts S3x8x8
  shapeCasts_S3x8x8_S1x3x8x8 : S3x8x8.ShapeCasts S1x3x8x8
  slices_S32x3x8x8_S32x1x8x8_0_0_0_0 : S32x3x8x8.Slices ![0, 0, 0, 0] S32x1x8x8
  shapeCasts_S32x1x8x8_S32x8x8 : S32x1x8x8.ShapeCasts S32x8x8
  slices_S32x3x8x8_S32x1x8x8_0_1_0_0 : S32x3x8x8.Slices ![0, 1, 0, 0] S32x1x8x8
  bcast_S_S32x8x8 : S_.BroadcastsInDim S32x8x8 (![] : Fin 0 → Fin S32x8x8.rank)
  slices_S32x3x8x8_S32x1x8x8_0_2_0_0 : S32x3x8x8.Slices ![0, 2, 0, 0] S32x1x8x8
  reducesTo_S32x8x8_S_d0_1_2 : S32x8x8.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024x1024.size a ≤ S32x3x1024x1024.size a
  hwx0_0 : ∀ i : grid0.Coords, EltTy.bits .f32 = 32 ∨ (Rect.block (s := S32x3x1024x1024) S1x3x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8x8.size a ≤ S32x3x8x8.size a
  hwx0_1 : ∀ i : grid0.Coords, EltTy.bits .f32 = 32 ∨ (Rect.block (s := S32x3x8x8) S1x3x8x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x8.size a ≤ S32x3x8x8.size a
  hwx0_2 : ∀ i : grid0.Coords, EltTy.bits .f32 = 32 ∨ (Rect.block (s := S32x3x8x8) S1x3x8x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x8x8.size a ≤ S32x3x8x8.size a
  hwx0_3 : ∀ i : grid0.Coords, EltTy.bits .f32 = 32 ∨ (Rect.block (s := S32x3x8x8) S1x3x8x8.size (cc0_transform_3 i) (hinb0_3 i)).WholeWords (EltTy.packing .f32)

variable [Facts₀]

abbrev win0_0 : Pipeline.Window sig grid0 :=
  Pipeline.Window.ofSpec (Memref.whole main_arg0) S1x3x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x3x8x8.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x3x8x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x3x8x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3x1024x1024 : Shape := ⟨4, ![32, 3, 1024, 1024]⟩
abbrev S32x3x8x128x8x128 : Shape := ⟨6, ![32, 3, 8, 128, 8, 128]⟩
abbrev S_ : Shape := ⟨0, ![]⟩
abbrev S32x3x8x8 : Shape := ⟨4, ![32, 3, 8, 8]⟩
abbrev S32x1x8x8 : Shape := ⟨4, ![32, 1, 8, 8]⟩
abbrev S32x8x8 : Shape := ⟨3, ![32, 8, 8]⟩
abbrev S1 : Shape := ⟨1, ![1]⟩

abbrev nBuf : Space → Nat
  | .hbm => 81
  | .vmem => 0
  | .smem => 0
  | _ => 0

abbrev bufTy : (tb : Table) → Fin (tcTables nBuf tb) → BufTy
  | .hbm, ⟨0, _⟩ => ⟨S32x3x1024x1024, .f32⟩
  | .hbm, ⟨1, _⟩ => ⟨S32x3x8x128x8x128, .f32⟩
  | .hbm, ⟨2, _⟩ => ⟨S_, .f32⟩
  | .hbm, ⟨3, _⟩ => ⟨S32x3x8x8, .f32⟩
  | .hbm, ⟨4, _⟩ => ⟨S_, .f32⟩
  | .hbm, ⟨5, _⟩ => ⟨S32x3x8x8, .f32⟩
  | .hbm, ⟨6, _⟩ => ⟨S32x3x8x8, .f32⟩
  | .hbm, ⟨7, _⟩ => ⟨S_, .f32⟩
  | .hbm, ⟨8, _⟩ => ⟨S32x3x8x8, .f32⟩
  | .hbm, ⟨9, _⟩ => ⟨S_, .f32⟩
  | .hbm, ⟨10, _⟩ => ⟨S32x3x8x8, .f32⟩
  | .hbm, ⟨11, _⟩ => ⟨S32x1x8x8, .f32⟩
  | .hbm, ⟨12, _⟩ => ⟨S32x8x8, .f32⟩
  | .hbm, ⟨13, _⟩ => ⟨S32x1x8x8, .f32⟩
  | .hbm, ⟨14, _⟩ => ⟨S32x8x8, .f32⟩
  | .hbm, ⟨15, _⟩ => ⟨S32x8x8, .i1⟩
  | .hbm, ⟨16, _⟩ => ⟨S32x1x8x8, .f32⟩
  | .hbm, ⟨17, _⟩ => ⟨S32x8x8, .f32⟩
  | .hbm, ⟨18, _⟩ => ⟨S32x1x8x8, .f32⟩
  | .hbm, ⟨19, _⟩ => ⟨S32x8x8, .f32⟩
  | .hbm, ⟨20, _⟩ => ⟨S32x8x8, .i1⟩
  | .hbm, ⟨21, _⟩ => ⟨S32x8x8, .i1⟩
  | .hbm, ⟨22, _⟩ => ⟨S32x1x8x8, .f32⟩
  | .hbm, ⟨23, _⟩ => ⟨S32x8x8, .f32⟩
  | .hbm, ⟨24, _⟩ => ⟨S32x1x8x8, .f32⟩
  | .hbm, ⟨25, _⟩ => ⟨S32x8x8, .f32⟩
  | .hbm, ⟨26, _⟩ => ⟨S32x8x8, .f32⟩
  | .hbm, ⟨27, _⟩ => ⟨S32x8x8, .f32⟩
  | .hbm, ⟨28, _⟩ => ⟨S_, .f32⟩
  | .hbm, ⟨29, _⟩ => ⟨S_, .f32⟩
  | .hbm, ⟨30, _⟩ => ⟨S32x8x8, .f32⟩
  | .hbm, ⟨31, _⟩ => ⟨S32x8x8, .f32⟩
  | .hbm, ⟨32, _⟩ => ⟨S32x1x8x8, .f32⟩
  | .hbm, ⟨33, _⟩ => ⟨S32x8x8, .f32⟩
  | .hbm, ⟨34, _⟩ => ⟨S32x1x8x8, .f32⟩
  | .hbm, ⟨35, _⟩ => ⟨S32x8x8, .f32⟩
  | .hbm, ⟨36, _⟩ => ⟨S32x8x8, .i1⟩
  | .hbm, ⟨37, _⟩ => ⟨S32x1x8x8, .f32⟩
  | .hbm, ⟨38, _⟩ => ⟨S32x8x8, .f32⟩
  | .hbm, ⟨39, _⟩ => ⟨S32x1x8x8, .f32⟩
  | .hbm, ⟨40, _⟩ => ⟨S32x8x8, .f32⟩
  | .hbm, ⟨41, _⟩ => ⟨S32x8x8, .i1⟩
  | .hbm, ⟨42, _⟩ => ⟨S32x8x8, .i1⟩
  | .hbm, ⟨43, _⟩ => ⟨S32x1x8x8, .f32⟩
  | .hbm, ⟨44, _⟩ => ⟨S32x8x8, .f32⟩
  | .hbm, ⟨45, _⟩ => ⟨S32x1x8x8, .f32⟩
  | .hbm, ⟨46, _⟩ => ⟨S32x8x8, .f32⟩
  | .hbm, ⟨47, _⟩ => ⟨S32x8x8, .f32⟩
  | .hbm, ⟨48, _⟩ => ⟨S32x8x8, .f32⟩
  | .hbm, ⟨49, _⟩ => ⟨S_, .f32⟩
  | .hbm, ⟨50, _⟩ => ⟨S_, .f32⟩
  | .hbm, ⟨51, _⟩ => ⟨S32x8x8, .f32⟩
  | .hbm, ⟨52, _⟩ => ⟨S32x8x8, .f32⟩
  | .hbm, ⟨53, _⟩ => ⟨S32x8x8, .f32⟩
  | .hbm, ⟨54, _⟩ => ⟨S32x1x8x8, .f32⟩
  | .hbm, ⟨55, _⟩ => ⟨S32x8x8, .f32⟩
  | .hbm, ⟨56, _⟩ => ⟨S32x1x8x8, .f32⟩
  | .hbm, ⟨57, _⟩ => ⟨S32x8x8, .f32⟩
  | .hbm, ⟨58, _⟩ => ⟨S32x8x8, .i1⟩
  | .hbm, ⟨59, _⟩ => ⟨S32x1x8x8, .f32⟩
  | .hbm, ⟨60, _⟩ => ⟨S32x8x8, .f32⟩
  | .hbm, ⟨61, _⟩ => ⟨S32x1x8x8, .f32⟩
  | .hbm, ⟨62, _⟩ => ⟨S32x8x8, .f32⟩
  | .hbm, ⟨63, _⟩ => ⟨S32x8x8, .i1⟩
  | .hbm, ⟨64, _⟩ => ⟨S32x8x8, .i1⟩
  | .hbm, ⟨65, _⟩ => ⟨S32x1x8x8, .f32⟩
  | .hbm, ⟨66, _⟩ => ⟨S32x8x8, .f32⟩
  | .hbm, ⟨67, _⟩ => ⟨S32x1x8x8, .f32⟩
  | .hbm, ⟨68, _⟩ => ⟨S32x8x8, .f32⟩
  | .hbm, ⟨69, _⟩ => ⟨S32x8x8, .f32⟩
  | .hbm, ⟨70, _⟩ => ⟨S32x8x8, .f32⟩
  | .hbm, ⟨71, _⟩ => ⟨S_, .f32⟩
  | .hbm, ⟨72, _⟩ => ⟨S_, .f32⟩
  | .hbm, ⟨73, _⟩ => ⟨S32x8x8, .f32⟩
  | .hbm, ⟨74, _⟩ => ⟨S32x8x8, .f32⟩
  | .hbm, ⟨75, _⟩ => ⟨S32x8x8, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | _, _ => ⟨S32x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_call2_v0 : Ref sig .tc := ⟨.hbm, 72, rfl⟩
abbrev main_call2_v1 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]

class Facts₀ : Prop where
  shapeCasts_S32x3x1024x1024_S32x3x8x128x8x128 : S32x3x1024x1024.ShapeCasts S32x3x8x128x8x128
  reducesTo_S32x3x8x128x8x128_S32x3x8x8_d3_5 : S32x3x8x128x8x128.ReducesTo [3, 5] S32x3x8x8
  h_S_ : 0 < S_.numel
  bcast_S_S32x3x8x8 : S_.BroadcastsInDim S32x3x8x8 (![] : Fin 0 → Fin S32x3x8x8.rank)
  slices_S32x3x8x8_S32x1x8x8_0_0_0_0 : S32x3x8x8.Slices ![0, 0, 0, 0] S32x1x8x8
  shapeCasts_S32x1x8x8_S32x8x8 : S32x1x8x8.ShapeCasts S32x8x8
  slices_S32x3x8x8_S32x1x8x8_0_1_0_0 : S32x3x8x8.Slices ![0, 1, 0, 0] S32x1x8x8
  bcast_S_S32x8x8 : S_.BroadcastsInDim S32x8x8 (![] : Fin 0 → Fin S32x8x8.rank)
  slices_S32x3x8x8_S32x1x8x8_0_2_0_0 : S32x3x8x8.Slices ![0, 2, 0, 0] S32x1x8x8
  reducesTo_S32x8x8_S_d0_1_2 : S32x8x8.ReducesTo [0, 1, 2] S_
  shapeCasts_S_S1 : S_.ShapeCasts S1

variable [Facts₀]

class Facts : Prop extends Facts₀ where

variable [Facts]
-- ==== Proof.KFrame.lean ====
/-
  The frame of `Kernel`'s @main, at any float family: the one kernel region followed by the host lines that
  combine its three results into the scalar the program returns.

  The region runs the kernel body once per batch element. At a grid point the body loads the whole
  [1, 3, 1024, 1024] input block and stores three [1, 3, 8, 8] blocks, each store covering its whole staging
  buffer; it also loads each output buffer before storing into it, and nothing it stores depends on those loads.
  So what an output's buffer holds after the body is ONE function of the input block alone (`outMean`, `outMax`,
  `outMin`: the store's payload read back through the whole-buffer rectangle). With that as the proof data the
  pipeline's frame run gives every output array as the blocks written back, the input array unchanged, and every
  other buffer as the later host lines leave it: those lines read the three results, write only buffers of their
  own and allocate nothing.
-/
import proofs.«145214_j73358041416354_1_alg».proof.Proof.Gen.Kernel.Launch
import proofs.«145214_j73358041416354_1_alg».proof.Proof.Gen.Kernel.Skeleton
import proofs.«145214_j73358041416354_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host lines -/

/-- The host lines after the region, stretch by stretch: the three pair terms (each a stretch of slices, compares
    and a squared difference, then the inlined `where`), their sum, the total and its division by 64. -/
abbrev tailOps : List (List (HloOp τ sig (Elt F))) :=
  [hostOps1, hostOps1_1, hostOps1_2, hostOps1_3, hostOps1_4, hostOps1_5, hostOps1_6]

/-- Core `c`'s buffers when the region is entered: as launched (nothing precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-! ## The later lines allocate nothing, stay within the unscoped buffers and write no array of the region -/

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh1_6 : (hostOps1_6 : List (HloOp τ sig (Elt F))).Forall fun op => op.fresh = ∅ := by
  simp only [List.Forall]; repeat' constructor

/-- A line writes only its own result buffer, and no result buffer of a host line is one of the region's four arrays
    (the input and the three statistics): decided line by line, window by window. -/
macro "keeps_lines" : tactic => `(tactic| (
  simp only [List.Forall]
  repeat' constructor
  all_goals (intro w; fin_cases w <;> simp only [StableHlo.nullary_writes, StableHlo.unary_writes, StableHlo.binary_writes,
    StableHlo.ternary_writes, StableHlo.quaternary_writes, StableHlo.reshape_writes, StableHlo.binaryIndexed_writes,
    Finset.mem_singleton] <;> exact StableHlo.devRef_ne_of_ne (by decide))))

theorem keeps1 : (hostOps1 : List (HloOp τ sig (Elt F))).Forall fun op =>
    ∀ w, Proc.devRef .tc (Pipeline.arrRef spec0 w) ∉ op.writes := by keeps_lines
theorem keeps1_1 : (hostOps1_1 : List (HloOp τ sig (Elt F))).Forall fun op =>
    ∀ w, Proc.devRef .tc (Pipeline.arrRef spec0 w) ∉ op.writes := by keeps_lines
theorem keeps1_2 : (hostOps1_2 : List (HloOp τ sig (Elt F))).Forall fun op =>
    ∀ w, Proc.devRef .tc (Pipeline.arrRef spec0 w) ∉ op.writes := by keeps_lines
theorem keeps1_3 : (hostOps1_3 : List (HloOp τ sig (Elt F))).Forall fun op =>
    ∀ w, Proc.devRef .tc (Pipeline.arrRef spec0 w) ∉ op.writes := by keeps_lines
theorem keeps1_4 : (hostOps1_4 : List (HloOp τ sig (Elt F))).Forall fun op =>
    ∀ w, Proc.devRef .tc (Pipeline.arrRef spec0 w) ∉ op.writes := by keeps_lines
theorem keeps1_5 : (hostOps1_5 : List (HloOp τ sig (Elt F))).Forall fun op =>
    ∀ w, Proc.devRef .tc (Pipeline.arrRef spec0 w) ∉ op.writes := by keeps_lines
theorem keeps1_6 : (hostOps1_6 : List (HloOp τ sig (Elt F))).Forall fun op =>
    ∀ w, Proc.devRef .tc (Pipeline.arrRef spec0 w) ∉ op.writes := by keeps_lines

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop
  · exact (List.forall_iff_forall_mem.mp fresh1_5) op hop
  · exact (List.forall_iff_forall_mem.mp fresh1_6) op hop

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop
  · exact (List.forall_iff_forall_mem.mp keeps1_5) op hop
  · exact (List.forall_iff_forall_mem.mp keeps1_6) op hop

/-! ## The input window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output's staging buffer -/

/-- The whole [1, 3, 8, 8] staging buffer, as the body's stores address it. -/
abbrev rOut : Rect S1x3x8x8 := Rect.unit (s := S1x3x8x8) ![0, 0, 0, 0] S1x3x8x8.size inb_S1x3x8x8_S1x3x8x8_0_0_0_0
/-- The whole [1, 3, 1024, 1024] input buffer, as the body's load addresses it. -/
abbrev rIn : Rect S1x3x1024x1024 := Rect.unit (s := S1x3x1024x1024) ![0, 0, 0, 0] S1x3x1024x1024.size inb_S1x3x1024x1024_S1x3x1024x1024_0_0_0_0

/-- The block means' buffer after the body: its one store read back, a function of the input block. -/
def outMean (x : Vec F S1x3x1024x1024 .f32) : Vec F S1x3x8x8 .f32 := View.canon [⟨rOut, k0_pay2 (View.ld x rIn)⟩]
/-- The block maxima's buffer after the body. -/
def outMax (x : Vec F S1x3x1024x1024 .f32) : Vec F S1x3x8x8 .f32 := View.canon [⟨rOut, k0_pay3 (View.ld x rIn)⟩]
/-- The block minima's buffer after the body. -/
def outMin (x : Vec F S1x3x1024x1024 .f32) : Vec F S1x3x8x8 .f32 := View.canon [⟨rOut, k0_pay4 (View.ld x rIn)⟩]

/-- One store through the whole-buffer rectangle covers the buffer. -/
theorem coverOut (p0 : Vec F S1x3x8x8 .f32) (y : S1x3x8x8.Idx) :
    ∃ pc ∈ ([⟨rOut, p0⟩] : List (View.Piece (Elt F) S1x3x8x8 .f32)), y ∈ pc.1.set :=
  View.cover_of_tiled [⟨rOut, p0⟩] S1x3x8x8.size (by rfl) y

/-! ## The body's triple -/

set_option maxHeartbeats 1000000 in
/-- The kernel body on whole staging memrefs, the input's at contents `x0` and the outputs' at anything, runs to the
    continuation holding the input's as it was and each output's at its function of `x0`. -/
theorem sound_kernel (c : Dev nD) (E : Set ℕ) (i : grid0.Coords)
    (arg1 : Memref sig .tc .vmem S1x3x1024x1024 .f32) (harg1 : arg1.IsWhole)
    (arg2 : Memref sig .tc .vmem S1x3x8x8 .f32) (harg2 : arg2.IsWhole)
    (arg3 : Memref sig .tc .vmem S1x3x8x8 .f32) (harg3 : arg3.IsWhole)
    (arg4 : Memref sig .tc .vmem S1x3x8x8 .f32) (harg4 : arg4.IsWhole)
    (x0 : Vec F S1x3x1024x1024 .f32) (K : PUnit → sProp 𝕄) :
    iprop(owns (c : Thread nD τ) arg1 fullShare x0 ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (outMean x0)
            ∗ owns (c : Thread nD τ) arg3 fullShare (outMax x0) ∗ owns (c : Thread nD τ) arg4 fullShare (outMin x0)) -∗ K ⟨⟩))
      ⊢ wp frame (wpE (defs₀ (F := F)) Variants.none c none) E (cc0__reduce_kernel i arg1 harg1 arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverOut _)
  isplitl [H2]
  · iexists _; isplitr
    swap; · iexact H2
    ipureintro
    exact View.read_writes_eq_canon _ _ _ (coverOut _)
  iexists _; isplitr
  swap; · iexact H3
  ipureintro
  exact View.read_writes_eq_canon _ _ _ (coverOut _)

/-! ## The region's proof data -/

/-- The arrays as the region finds them; after the body at point `t` the input's buffer at its block and each
    output's at its function of that block; the invariant the scoped rest and the generator register, untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outMean (iblk m c 0 t)
    | ⟨2, _⟩ => outMax (iblk m c 0 t)
    | ⟨3, _⟩ => outMin (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outMean (iblk m c 0 t) := by dsimp only [dats]
theorem after0_2 (c : Dev nD) (t : Fin cfg0.N) : (dats m 0 c).after 2 t = outMax (iblk m c 0 t) := by dsimp only [dats]
theorem after0_3 (c : Dev nD) (t : Fin cfg0.N) : (dats m 0 c).after 3 t = outMin (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input's memref holds its block, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the region at what the
    proof data computes and every other unscoped buffer as the later lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's statement at any float family: @main runs and the input array ends as launched (it is a
    fetched window of the region, which the later lines never write). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c))))
    (run_main m ρ)

end Cert.Kernel.Frame

end
-- ==== Proof.KIFrame.lean ====
/-
  The frame of `KernelIdeal`'s @main, at any float family: the one kernel region followed by the host lines that
  combine its three results into the scalar the program returns.

  The region runs the kernel body once per batch element. At a grid point the body loads the whole
  [1, 3, 1024, 1024] input block and stores three [1, 3, 8, 8] blocks, each store covering its whole staging
  buffer; it also loads each output buffer before storing into it, and nothing it stores depends on those loads.
  So what an output's buffer holds after the body is ONE function of the input block alone (`outMean`, `outMax`,
  `outMin`: the store's payload read back through the whole-buffer rectangle). With that as the proof data the
  pipeline's frame run gives every output array as the blocks written back, the input array unchanged, and every
  other buffer as the later host lines leave it: those lines read the three results, write only buffers of their
  own and allocate nothing.
-/
import proofs.«145214_j73358041416354_1_alg».proof.Proof.Gen.KernelIdeal.Launch
import proofs.«145214_j73358041416354_1_alg».proof.Proof.Gen.KernelIdeal.Skeleton
import proofs.«145214_j73358041416354_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host lines -/

/-- The host lines after the region, stretch by stretch: the three pair terms (each a stretch of slices, compares
    and a squared difference, then the inlined `where`), their sum, the total and its division by 64. -/
abbrev tailOps : List (List (HloOp τ sig (Elt F))) :=
  [hostOps1, hostOps1_1, hostOps1_2, hostOps1_3, hostOps1_4, hostOps1_5, hostOps1_6]

/-- Core `c`'s buffers when the region is entered: as launched (nothing precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-! ## The later lines allocate nothing, stay within the unscoped buffers and write no array of the region -/

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh1_6 : (hostOps1_6 : List (HloOp τ sig (Elt F))).Forall fun op => op.fresh = ∅ := by
  simp only [List.Forall]; repeat' constructor

/-- A line writes only its own result buffer, and no result buffer of a host line is one of the region's four arrays
    (the input and the three statistics): decided line by line, window by window. -/
macro "keeps_lines" : tactic => `(tactic| (
  simp only [List.Forall]
  repeat' constructor
  all_goals (intro w; fin_cases w <;> simp only [StableHlo.nullary_writes, StableHlo.unary_writes, StableHlo.binary_writes,
    StableHlo.ternary_writes, StableHlo.quaternary_writes, StableHlo.reshape_writes, StableHlo.binaryIndexed_writes,
    Finset.mem_singleton] <;> exact StableHlo.devRef_ne_of_ne (by decide))))

theorem keeps1 : (hostOps1 : List (HloOp τ sig (Elt F))).Forall fun op =>
    ∀ w, Proc.devRef .tc (Pipeline.arrRef spec0 w) ∉ op.writes := by keeps_lines
theorem keeps1_1 : (hostOps1_1 : List (HloOp τ sig (Elt F))).Forall fun op =>
    ∀ w, Proc.devRef .tc (Pipeline.arrRef spec0 w) ∉ op.writes := by keeps_lines
theorem keeps1_2 : (hostOps1_2 : List (HloOp τ sig (Elt F))).Forall fun op =>
    ∀ w, Proc.devRef .tc (Pipeline.arrRef spec0 w) ∉ op.writes := by keeps_lines
theorem keeps1_3 : (hostOps1_3 : List (HloOp τ sig (Elt F))).Forall fun op =>
    ∀ w, Proc.devRef .tc (Pipeline.arrRef spec0 w) ∉ op.writes := by keeps_lines
theorem keeps1_4 : (hostOps1_4 : List (HloOp τ sig (Elt F))).Forall fun op =>
    ∀ w, Proc.devRef .tc (Pipeline.arrRef spec0 w) ∉ op.writes := by keeps_lines
theorem keeps1_5 : (hostOps1_5 : List (HloOp τ sig (Elt F))).Forall fun op =>
    ∀ w, Proc.devRef .tc (Pipeline.arrRef spec0 w) ∉ op.writes := by keeps_lines
theorem keeps1_6 : (hostOps1_6 : List (HloOp τ sig (Elt F))).Forall fun op =>
    ∀ w, Proc.devRef .tc (Pipeline.arrRef spec0 w) ∉ op.writes := by keeps_lines

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop
  · exact (List.forall_iff_forall_mem.mp fresh1_5) op hop
  · exact (List.forall_iff_forall_mem.mp fresh1_6) op hop

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop
  · exact (List.forall_iff_forall_mem.mp keeps1_5) op hop
  · exact (List.forall_iff_forall_mem.mp keeps1_6) op hop

/-! ## The input window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output's staging buffer -/

/-- The whole [1, 3, 8, 8] staging buffer, as the body's stores address it. -/
abbrev rOut : Rect S1x3x8x8 := Rect.unit (s := S1x3x8x8) ![0, 0, 0, 0] S1x3x8x8.size inb_S1x3x8x8_S1x3x8x8_0_0_0_0
/-- The whole [1, 3, 1024, 1024] input buffer, as the body's load addresses it. -/
abbrev rIn : Rect S1x3x1024x1024 := Rect.unit (s := S1x3x1024x1024) ![0, 0, 0, 0] S1x3x1024x1024.size inb_S1x3x1024x1024_S1x3x1024x1024_0_0_0_0

/-- The block means' buffer after the body: its one store read back, a function of the input block. -/
def outMean (x : Vec F S1x3x1024x1024 .f32) : Vec F S1x3x8x8 .f32 := View.canon [⟨rOut, k0_pay2 (View.ld x rIn)⟩]
/-- The block maxima's buffer after the body. -/
def outMax (x : Vec F S1x3x1024x1024 .f32) : Vec F S1x3x8x8 .f32 := View.canon [⟨rOut, k0_pay3 (View.ld x rIn)⟩]
/-- The block minima's buffer after the body. -/
def outMin (x : Vec F S1x3x1024x1024 .f32) : Vec F S1x3x8x8 .f32 := View.canon [⟨rOut, k0_pay4 (View.ld x rIn)⟩]

/-- One store through the whole-buffer rectangle covers the buffer. -/
theorem coverOut (p0 : Vec F S1x3x8x8 .f32) (y : S1x3x8x8.Idx) :
    ∃ pc ∈ ([⟨rOut, p0⟩] : List (View.Piece (Elt F) S1x3x8x8 .f32)), y ∈ pc.1.set :=
  View.cover_of_tiled [⟨rOut, p0⟩] S1x3x8x8.size (by rfl) y

/-! ## The body's triple -/

set_option maxHeartbeats 1000000 in
/-- The kernel body on whole staging memrefs, the input's at contents `x0` and the outputs' at anything, runs to the
    continuation holding the input's as it was and each output's at its function of `x0`. -/
theorem sound_kernel (c : Dev nD) (E : Set ℕ) (i : grid0.Coords)
    (arg1 : Memref sig .tc .vmem S1x3x1024x1024 .f32) (harg1 : arg1.IsWhole)
    (arg2 : Memref sig .tc .vmem S1x3x8x8 .f32) (harg2 : arg2.IsWhole)
    (arg3 : Memref sig .tc .vmem S1x3x8x8 .f32) (harg3 : arg3.IsWhole)
    (arg4 : Memref sig .tc .vmem S1x3x8x8 .f32) (harg4 : arg4.IsWhole)
    (x0 : Vec F S1x3x1024x1024 .f32) (K : PUnit → sProp 𝕄) :
    iprop(owns (c : Thread nD τ) arg1 fullShare x0 ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (outMean x0)
            ∗ owns (c : Thread nD τ) arg3 fullShare (outMax x0) ∗ owns (c : Thread nD τ) arg4 fullShare (outMin x0)) -∗ K ⟨⟩))
      ⊢ wp frame (wpE (defs₀ (F := F)) Variants.none c none) E (cc0__reduce_kernel i arg1 harg1 arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverOut _)
  isplitl [H2]
  · iexists _; isplitr
    swap; · iexact H2
    ipureintro
    exact View.read_writes_eq_canon _ _ _ (coverOut _)
  iexists _; isplitr
  swap; · iexact H3
  ipureintro
  exact View.read_writes_eq_canon _ _ _ (coverOut _)

/-! ## The region's proof data -/

/-- The arrays as the region finds them; after the body at point `t` the input's buffer at its block and each
    output's at its function of that block; the invariant the scoped rest and the generator register, untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outMean (iblk m c 0 t)
    | ⟨2, _⟩ => outMax (iblk m c 0 t)
    | ⟨3, _⟩ => outMin (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outMean (iblk m c 0 t) := by dsimp only [dats]
theorem after0_2 (c : Dev nD) (t : Fin cfg0.N) : (dats m 0 c).after 2 t = outMax (iblk m c 0 t) := by dsimp only [dats]
theorem after0_3 (c : Dev nD) (t : Fin cfg0.N) : (dats m 0 c).after 3 t = outMin (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input's memref holds its block, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the region at what the
    proof data computes and every other unscoped buffer as the later lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's statement at any float family: @main runs and the input array ends as launched (it is a
    fetched window of the region, which the later lines never write). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c))))
    (run_main m ρ)

end Cert.KernelIdeal.Frame

end
-- ==== Proof.KIValue.lean ====
/-
  The kernel program's three output arrays after the run, at any float family: array position (b, c, i, j) holds
  what the body stores at (0, c, i, j) when it is handed image b's block of the input.

  The region's grid has one point per image; at point b the input window is image b's [1, 3, 1024, 1024] block and
  each output window is image b's [1, 3, 8, 8] block of its array, so the 32 blocks written back tile each output
  array and block b is a function of image b's input block alone.
-/
import proofs.«145214_j73358041416354_1_alg».proof.Proof.KIFrame
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- An output array from the body's stored value `pay`: position (b, c, i, j) is `pay` of image b's block, at
    (0, c, i, j). -/
def arrOf (pay : Vec F S1x3x1024x1024 .f32 → FVec F S1x3x8x8 .f32) (x : S32x3x1024x1024.Idx → Elt F .f32) :
    S32x3x8x8.Idx → Elt F .f32 :=
  fun e => pay (fun y => x (ix4 (e 0) (y 1) (y 2) (y 3))) (ix4 (0 : Fin 1) (e 1) (e 2) (e 3))

/-- The stored value at a block position is the array function at the array position the block position sits at,
    once the block is image `e 0`'s and the block position is `e`'s last three coordinates. -/
theorem pay_at (pay : Vec F S1x3x1024x1024 .f32 → FVec F S1x3x8x8 .f32) (x : S32x3x1024x1024.Idx → Elt F .f32)
    (e : S32x3x8x8.Idx) (j : S1x3x8x8.Idx) (blk : Vec F S1x3x1024x1024 .f32)
    (hblk : blk = fun y => x (ix4 (e 0) (y 1) (y 2) (y 3))) (hj : j = ix4 (0 : Fin 1) (e 1) (e 2) (e 3)) :
    pay blk j = arrOf pay x e := by
  subst hblk hj; rfl

theorem hz4 : (![0, 0, 0, 0] : Fin 4 → Nat) = fun _ => 0 := funext fun a => by fin_cases a <;> rfl

/-- The printed index maps over the grid: every window's block index is (the image, 0, 0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-! ### The tile means (window 1) -/

/-- What grid point `t` writes back is block `t` of the whole-array function. -/
theorem flushed1_eq (c : Dev nD) (t : Fin cfg0.N) :
    (dats m 0 c).flushed 1 t = ((cfg0.win 1).blk t).view.read (Elt F) (arrOf k0_pay2 (V m c main_arg0)) := by
  show (cfg0.win 1).cut (grid0.coords t) ((dats m 0 c).after 1 t) = _
  rw [after0_1]
  unfold outMean
  rw [View.canon_unit_zero hz4]
  simp only [View.ld_unit_zero (S := S1x3x1024x1024) hz4]
  obtain ⟨e0, e1, e2, e3, f0, f1, f2, f3, g0, g1, g2, g3, k0, k1, k2, k3⟩ := idx_facts t
  have key : ∀ (jj : S1x3x8x8.Idx) (e : S32x3x8x8.Idx),
      (iblk m c 0 t = fun y => V m c main_arg0 (ix4 (e 0) (y 1) (y 2) (y 3))) → jj = ix4 (0 : Fin 1) (e 1) (e 2) (e 3) →
      k0_pay2 (iblk m c 0 t) jj = arrOf k0_pay2 (V m c main_arg0) e :=
    fun jj e hb hj => pay_at k0_pay2 (V m c main_arg0) e jj (iblk m c 0 t) hb hj
  generalize k0_pay2 (iblk m c 0 t) = P at key ⊢
  generalize arrOf k0_pay2 (V m c main_arg0) = G at key ⊢
  funext j
  refine key _ (((cfg0.win 1).blk t).view.emb j) ?_ ?_
  · funext y
    show V m c main_arg0 (((cfg0.win 0).blk t).view.emb y) = _
    refine congrArg (V m c main_arg0) ?_
    funext a; apply Fin.ext
    have hj0 : (j 0).val < 1 := (j 0).isLt
    have hy0 : (y 0).val < 1 := (y 0).isLt
    match a with
    | ⟨0, _⟩ => show win0_0.index t (0 : Fin 4) * 1 + 1 * (y 0).val = win0_1.index t (0 : Fin 4) * 1 + 1 * (j 0).val; omega
    | ⟨1, _⟩ => show win0_0.index t (1 : Fin 4) * 3 + 1 * (y 1).val = (y 1).val; omega
    | ⟨2, _⟩ => show win0_0.index t (2 : Fin 4) * 1024 + 1 * (y 2).val = (y 2).val; omega
    | ⟨3, _⟩ => show win0_0.index t (3 : Fin 4) * 1024 + 1 * (y 3).val = (y 3).val; omega
  · funext a; apply Fin.ext
    have hj0 : (j 0).val < 1 := (j 0).isLt
    match a with
    | ⟨0, _⟩ => show (j 0).val = 0; omega
    | ⟨1, _⟩ => show (j 1).val = win0_1.index t (1 : Fin 4) * 3 + 1 * (j 1).val; omega
    | ⟨2, _⟩ => show (j 2).val = win0_1.index t (2 : Fin 4) * 8 + 1 * (j 2).val; omega
    | ⟨3, _⟩ => show (j 3).val = win0_1.index t (3 : Fin 4) * 8 + 1 * (j 3).val; omega

/-- An index of the array is in point `t`'s block iff each coordinate is in the block's range on its axis. -/
theorem mem_blk1 (t : Fin cfg0.N) (i : S32x3x8x8.Idx) :
    i ∈ ((cfg0.win 1).blk t).view.set ↔ ∀ a : Fin 4, win0_1.index t a * S1x3x8x8.size a ≤ (i a).val ∧ (i a).val < win0_1.index t a * S1x3x8x8.size a + S1x3x8x8.size a := by
  show i ∈ ((View.whole main_v0_0).slice (win0_1.rect t)).set ↔ _
  rw [View.set_slice_whole, Rect.mem_set_unit]
  exact Iff.rfl

/-- Every position of the array is in the block of the grid point of its image. -/
theorem cover1 (i : S32x3x8x8.Idx) : ∃ t : Fin cfg0.N, (cfg0.win 1).flush t = true ∧ i ∈ ((cfg0.win 1).blk t).view.set := by
  have hi0 : (i 0).val < 32 := (i 0).isLt
  have hi1 : (i 1).val < 3 := (i 1).isLt
  have hi2 : (i 2).val < 8 := (i 2).isLt
  have hi3 : (i 3).val < 8 := (i 3).isLt
  have hN : (i 0).val < cfg0.N := by rw [show cfg0.N = 32 from N_0]; exact hi0
  refine ⟨⟨(i 0).val, hN⟩, flush0_1 _, ?_⟩
  rw [mem_blk1]
  obtain ⟨e0, e1, e2, e3, f0, f1, f2, f3, g0, g1, g2, g3, k0, k1, k2, k3⟩ := idx_facts ⟨(i 0).val, hN⟩
  have ht : (⟨(i 0).val, hN⟩ : Fin cfg0.N).val = (i 0).val := rfl
  intro a
  match a with
  | ⟨0, _⟩ => show win0_1.index _ (0 : Fin 4) * 1 ≤ (i 0).val ∧ (i 0).val < win0_1.index _ (0 : Fin 4) * 1 + 1; omega
  | ⟨1, _⟩ => show win0_1.index _ (1 : Fin 4) * 3 ≤ (i 1).val ∧ (i 1).val < win0_1.index _ (1 : Fin 4) * 3 + 3; omega
  | ⟨2, _⟩ => show win0_1.index _ (2 : Fin 4) * 8 ≤ (i 2).val ∧ (i 2).val < win0_1.index _ (2 : Fin 4) * 8 + 8; omega
  | ⟨3, _⟩ => show win0_1.index _ (3 : Fin 4) * 8 ≤ (i 3).val ∧ (i 3).val < win0_1.index _ (3 : Fin 4) * 8 + 8; omega

/-- The array after the run: the stored value of each image's block, at every position. -/
theorem final1 (c : Dev nD) : (dats m 0 c).arrAt 1 cfg0.N = arrOf k0_pay2 (V m c main_arg0) :=
  (dats m 0 c).arrAt_eq_of_cover 1 (arrOf k0_pay2 (V m c main_arg0)) (fun t _ => flushed1_eq m c t) cover1

/-! ### The tile maxima (window 2) -/

/-- What grid point `t` writes back is block `t` of the whole-array function. -/
theorem flushed2_eq (c : Dev nD) (t : Fin cfg0.N) :
    (dats m 0 c).flushed 2 t = ((cfg0.win 2).blk t).view.read (Elt F) (arrOf k0_pay3 (V m c main_arg0)) := by
  show (cfg0.win 2).cut (grid0.coords t) ((dats m 0 c).after 2 t) = _
  rw [after0_2]
  unfold outMax
  rw [View.canon_unit_zero hz4]
  simp only [View.ld_unit_zero (S := S1x3x1024x1024) hz4]
  obtain ⟨e0, e1, e2, e3, f0, f1, f2, f3, g0, g1, g2, g3, k0, k1, k2, k3⟩ := idx_facts t
  have key : ∀ (jj : S1x3x8x8.Idx) (e : S32x3x8x8.Idx),
      (iblk m c 0 t = fun y => V m c main_arg0 (ix4 (e 0) (y 1) (y 2) (y 3))) → jj = ix4 (0 : Fin 1) (e 1) (e 2) (e 3) →
      k0_pay3 (iblk m c 0 t) jj = arrOf k0_pay3 (V m c main_arg0) e :=
    fun jj e hb hj => pay_at k0_pay3 (V m c main_arg0) e jj (iblk m c 0 t) hb hj
  generalize k0_pay3 (iblk m c 0 t) = P at key ⊢
  generalize arrOf k0_pay3 (V m c main_arg0) = G at key ⊢
  funext j
  refine key _ (((cfg0.win 2).blk t).view.emb j) ?_ ?_
  · funext y
    show V m c main_arg0 (((cfg0.win 0).blk t).view.emb y) = _
    refine congrArg (V m c main_arg0) ?_
    funext a; apply Fin.ext
    have hj0 : (j 0).val < 1 := (j 0).isLt
    have hy0 : (y 0).val < 1 := (y 0).isLt
    match a with
    | ⟨0, _⟩ => show win0_0.index t (0 : Fin 4) * 1 + 1 * (y 0).val = win0_2.index t (0 : Fin 4) * 1 + 1 * (j 0).val; omega
    | ⟨1, _⟩ => show win0_0.index t (1 : Fin 4) * 3 + 1 * (y 1).val = (y 1).val; omega
    | ⟨2, _⟩ => show win0_0.index t (2 : Fin 4) * 1024 + 1 * (y 2).val = (y 2).val; omega
    | ⟨3, _⟩ => show win0_0.index t (3 : Fin 4) * 1024 + 1 * (y 3).val = (y 3).val; omega
  · funext a; apply Fin.ext
    have hj0 : (j 0).val < 1 := (j 0).isLt
    match a with
    | ⟨0, _⟩ => show (j 0).val = 0; omega
    | ⟨1, _⟩ => show (j 1).val = win0_2.index t (1 : Fin 4) * 3 + 1 * (j 1).val; omega
    | ⟨2, _⟩ => show (j 2).val = win0_2.index t (2 : Fin 4) * 8 + 1 * (j 2).val; omega
    | ⟨3, _⟩ => show (j 3).val = win0_2.index t (3 : Fin 4) * 8 + 1 * (j 3).val; omega

/-- An index of the array is in point `t`'s block iff each coordinate is in the block's range on its axis. -/
theorem mem_blk2 (t : Fin cfg0.N) (i : S32x3x8x8.Idx) :
    i ∈ ((cfg0.win 2).blk t).view.set ↔ ∀ a : Fin 4, win0_2.index t a * S1x3x8x8.size a ≤ (i a).val ∧ (i a).val < win0_2.index t a * S1x3x8x8.size a + S1x3x8x8.size a := by
  show i ∈ ((View.whole main_v0_1).slice (win0_2.rect t)).set ↔ _
  rw [View.set_slice_whole, Rect.mem_set_unit]
  exact Iff.rfl

/-- Every position of the array is in the block of the grid point of its image. -/
theorem cover2 (i : S32x3x8x8.Idx) : ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 8 := (i 2).isLt
  have hi3 : (i 3).val < 8 := (i 3).isLt
  have hN : (i 0).val < cfg0.N := by rw [show cfg0.N = 32 from N_0]; exact hi0
  refine ⟨⟨(i 0).val, hN⟩, flush0_2 _, ?_⟩
  rw [mem_blk2]
  obtain ⟨e0, e1, e2, e3, f0, f1, f2, f3, g0, g1, g2, g3, k0, k1, k2, k3⟩ := idx_facts ⟨(i 0).val, hN⟩
  have ht : (⟨(i 0).val, hN⟩ : Fin cfg0.N).val = (i 0).val := rfl
  intro a
  match a with
  | ⟨0, _⟩ => show win0_2.index _ (0 : Fin 4) * 1 ≤ (i 0).val ∧ (i 0).val < win0_2.index _ (0 : Fin 4) * 1 + 1; omega
  | ⟨1, _⟩ => show win0_2.index _ (1 : Fin 4) * 3 ≤ (i 1).val ∧ (i 1).val < win0_2.index _ (1 : Fin 4) * 3 + 3; omega
  | ⟨2, _⟩ => show win0_2.index _ (2 : Fin 4) * 8 ≤ (i 2).val ∧ (i 2).val < win0_2.index _ (2 : Fin 4) * 8 + 8; omega
  | ⟨3, _⟩ => show win0_2.index _ (3 : Fin 4) * 8 ≤ (i 3).val ∧ (i 3).val < win0_2.index _ (3 : Fin 4) * 8 + 8; omega

/-- The array after the run: the stored value of each image's block, at every position. -/
theorem final2 (c : Dev nD) : (dats m 0 c).arrAt 2 cfg0.N = arrOf k0_pay3 (V m c main_arg0) :=
  (dats m 0 c).arrAt_eq_of_cover 2 (arrOf k0_pay3 (V m c main_arg0)) (fun t _ => flushed2_eq m c t) cover2

/-! ### The tile minima (window 3) -/

/-- What grid point `t` writes back is block `t` of the whole-array function. -/
theorem flushed3_eq (c : Dev nD) (t : Fin cfg0.N) :
    (dats m 0 c).flushed 3 t = ((cfg0.win 3).blk t).view.read (Elt F) (arrOf k0_pay4 (V m c main_arg0)) := by
  show (cfg0.win 3).cut (grid0.coords t) ((dats m 0 c).after 3 t) = _
  rw [after0_3]
  unfold outMin
  rw [View.canon_unit_zero hz4]
  simp only [View.ld_unit_zero (S := S1x3x1024x1024) hz4]
  obtain ⟨e0, e1, e2, e3, f0, f1, f2, f3, g0, g1, g2, g3, k0, k1, k2, k3⟩ := idx_facts t
  have key : ∀ (jj : S1x3x8x8.Idx) (e : S32x3x8x8.Idx),
      (iblk m c 0 t = fun y => V m c main_arg0 (ix4 (e 0) (y 1) (y 2) (y 3))) → jj = ix4 (0 : Fin 1) (e 1) (e 2) (e 3) →
      k0_pay4 (iblk m c 0 t) jj = arrOf k0_pay4 (V m c main_arg0) e :=
    fun jj e hb hj => pay_at k0_pay4 (V m c main_arg0) e jj (iblk m c 0 t) hb hj
  generalize k0_pay4 (iblk m c 0 t) = P at key ⊢
  generalize arrOf k0_pay4 (V m c main_arg0) = G at key ⊢
  funext j
  refine key _ (((cfg0.win 3).blk t).view.emb j) ?_ ?_
  · funext y
    show V m c main_arg0 (((cfg0.win 0).blk t).view.emb y) = _
    refine congrArg (V m c main_arg0) ?_
    funext a; apply Fin.ext
    have hj0 : (j 0).val < 1 := (j 0).isLt
    have hy0 : (y 0).val < 1 := (y 0).isLt
    match a with
    | ⟨0, _⟩ => show win0_0.index t (0 : Fin 4) * 1 + 1 * (y 0).val = win0_3.index t (0 : Fin 4) * 1 + 1 * (j 0).val; omega
    | ⟨1, _⟩ => show win0_0.index t (1 : Fin 4) * 3 + 1 * (y 1).val = (y 1).val; omega
    | ⟨2, _⟩ => show win0_0.index t (2 : Fin 4) * 1024 + 1 * (y 2).val = (y 2).val; omega
    | ⟨3, _⟩ => show win0_0.index t (3 : Fin 4) * 1024 + 1 * (y 3).val = (y 3).val; omega
  · funext a; apply Fin.ext
    have hj0 : (j 0).val < 1 := (j 0).isLt
    match a with
    | ⟨0, _⟩ => show (j 0).val = 0; omega
    | ⟨1, _⟩ => show (j 1).val = win0_3.index t (1 : Fin 4) * 3 + 1 * (j 1).val; omega
    | ⟨2, _⟩ => show (j 2).val = win0_3.index t (2 : Fin 4) * 8 + 1 * (j 2).val; omega
    | ⟨3, _⟩ => show (j 3).val = win0_3.index t (3 : Fin 4) * 8 + 1 * (j 3).val; omega

/-- An index of the array is in point `t`'s block iff each coordinate is in the block's range on its axis. -/
theorem mem_blk3 (t : Fin cfg0.N) (i : S32x3x8x8.Idx) :
    i ∈ ((cfg0.win 3).blk t).view.set ↔ ∀ a : Fin 4, win0_3.index t a * S1x3x8x8.size a ≤ (i a).val ∧ (i a).val < win0_3.index t a * S1x3x8x8.size a + S1x3x8x8.size a := by
  show i ∈ ((View.whole main_v0_2).slice (win0_3.rect t)).set ↔ _
  rw [View.set_slice_whole, Rect.mem_set_unit]
  exact Iff.rfl

/-- Every position of the array is in the block of the grid point of its image. -/
theorem cover3 (i : S32x3x8x8.Idx) : ∃ t : Fin cfg0.N, (cfg0.win 3).flush t = true ∧ i ∈ ((cfg0.win 3).blk t).view.set := by
  have hi0 : (i 0).val < 32 := (i 0).isLt
  have hi1 : (i 1).val < 3 := (i 1).isLt
  have hi2 : (i 2).val < 8 := (i 2).isLt
  have hi3 : (i 3).val < 8 := (i 3).isLt
  have hN : (i 0).val < cfg0.N := by rw [show cfg0.N = 32 from N_0]; exact hi0
  refine ⟨⟨(i 0).val, hN⟩, flush0_3 _, ?_⟩
  rw [mem_blk3]
  obtain ⟨e0, e1, e2, e3, f0, f1, f2, f3, g0, g1, g2, g3, k0, k1, k2, k3⟩ := idx_facts ⟨(i 0).val, hN⟩
  have ht : (⟨(i 0).val, hN⟩ : Fin cfg0.N).val = (i 0).val := rfl
  intro a
  match a with
  | ⟨0, _⟩ => show win0_3.index _ (0 : Fin 4) * 1 ≤ (i 0).val ∧ (i 0).val < win0_3.index _ (0 : Fin 4) * 1 + 1; omega
  | ⟨1, _⟩ => show win0_3.index _ (1 : Fin 4) * 3 ≤ (i 1).val ∧ (i 1).val < win0_3.index _ (1 : Fin 4) * 3 + 3; omega
  | ⟨2, _⟩ => show win0_3.index _ (2 : Fin 4) * 8 ≤ (i 2).val ∧ (i 2).val < win0_3.index _ (2 : Fin 4) * 8 + 8; omega
  | ⟨3, _⟩ => show win0_3.index _ (3 : Fin 4) * 8 ≤ (i 3).val ∧ (i 3).val < win0_3.index _ (3 : Fin 4) * 8 + 8; omega

/-- The array after the run: the stored value of each image's block, at every position. -/
theorem final3 (c : Dev nD) : (dats m 0 c).arrAt 3 cfg0.N = arrOf k0_pay4 (V m c main_arg0) :=
  (dats m 0 c).arrAt_eq_of_cover 3 (arrOf k0_pay4 (V m c main_arg0)) (fun t _ => flushed3_eq m c t) cover3

end Cert.KernelIdeal.Frame

end
-- ==== Proof.Spec.lean ====
/-
  What both programs compute, stated once and over no program.

  The input is a [32, 3, 1024, 1024] array `x`. Its last two axes are cut into an 8 × 8 grid of 128 × 128 tiles;
  tile (i, j) of image (b, c) holds the entries `x[b, c, 128 i + p, 128 j + q]`, p, q < 128. Three statistics of each
  tile — the mean, the maximum and the minimum of its 16384 entries — give three [32, 3, 8, 8] arrays. The result is
  a function of those three arrays alone (`tail`): for the channel pairs (0, 1), (1, 2), (0, 2) the squared
  difference of the two channels' tile means, put to zero wherever one channel's tile minimum exceeds the other's
  tile maximum, the three terms added, summed over all 32 · 8 · 8 positions and divided by 64.

  The reference takes each statistic by ONE reduction over both tile axes of the array reshaped to
  [32, 3, 8, 128, 8, 128] (`refMean`, `refMax`, `refMin`); the kernel takes it in two stages, first down the 128 rows
  of a tile and then along its 128 columns, dividing by 128 after each stage for the mean.
-/
import Idealize.ShloMosaic.PureOps.Ideal
import Idealize.ShloMosaic.PureOps.Vector
import Idealize.ShloMosaic.Lib.ValueIdx

noncomputable section

namespace Cert.Spec

open Idealize.ShloMosaic Idealize.ShloMosaic.ValueIdx

/-- The input array, one image's block of it, a statistic array, one image's block of that. -/
abbrev SX : Shape := ⟨4, ![32, 3, 1024, 1024]⟩
abbrev SB : Shape := ⟨4, ![1, 3, 1024, 1024]⟩
abbrev SO : Shape := ⟨4, ![32, 3, 8, 8]⟩
abbrev SOB : Shape := ⟨4, ![1, 3, 8, 8]⟩
/-- The input with both spatial axes split into (tile, offset). -/
abbrev S6 : Shape := ⟨6, ![32, 3, 8, 128, 8, 128]⟩
/-- One channel of a statistic, with and without its unit axis; a scalar; a one-element vector. -/
abbrev SC : Shape := ⟨4, ![32, 1, 8, 8]⟩
abbrev SP : Shape := ⟨3, ![32, 8, 8]⟩
abbrev S0 : Shape := ⟨0, ![]⟩
abbrev S1 : Shape := ⟨1, ![1]⟩

/-! ## The tile statistics, entry by entry -/

/-- Row (or column) `128 i + p` of the image: offset `p` inside tile `i`. -/
def pos (i : Fin 8) (p : Fin 128) : Fin 1024 := ⟨128 * i.val + p.val, by omega⟩

/-- Entry (p, q) of tile (i, j) of image (b, c). -/
def ent (x : SX.Idx → EReal) (b : Fin 32) (c : Fin 3) (i j : Fin 8) (pq : Fin 128 × Fin 128) : EReal :=
  x (ix4 b c (pos i pq.1) (pos j pq.2))

/-- The sum, the maximum and the minimum of a tile's 16384 entries. -/
def tileSum (x : SX.Idx → EReal) (b : Fin 32) (c : Fin 3) (i j : Fin 8) : EReal := ∑ pq : Fin 128 × Fin 128, ent x b c i j pq
def tileMax (x : SX.Idx → EReal) (b : Fin 32) (c : Fin 3) (i j : Fin 8) : EReal := Finset.univ.sup (ent x b c i j)
def tileMin (x : SX.Idx → EReal) (b : Fin 32) (c : Fin 3) (i j : Fin 8) : EReal := Finset.univ.inf (ent x b c i j)
/-- The tile's mean: its sum divided by 16384 (the float literal `0x46800000`). -/
def tileMean (x : SX.Idx → EReal) (b : Fin 32) (c : Fin 3) (i j : Fin 8) : EReal :=
  Ideal.div (tileSum x b c i j) (Ideal.ofBits .f32 0x46800000#32)

/-- Image `b`'s block of the input: what the kernel is handed at grid point `b`. -/
def block (x : SX.Idx → EReal) (b : Fin 32) : SB.Idx → EReal := fun y => x (ix4 b (y 1) (y 2) (y 3))

/-! ## The reference's three statistics, as it computes them -/

section Ref
variable (hc : SX.ShapeCasts S6) (hr : S6.ReducesTo [3, 5] SO) (h0 : 0 < S0.numel)
  (hb : S0.BroadcastsInDim SO (![] : Fin 0 → Fin SO.rank))

/-- One sum over both tile axes, from zero, divided by 16384. -/
def refMean (x : FVec Ideal SX .f32) : FVec Ideal SO .f32 :=
  Host.divf (Host.reduceAdd (shapeCast S6 x hc) (constant (F := Ideal) S0 .f32 0x00000000#32) hr h0)
    (broadcastInDim SO ![] hb (constant (F := Ideal) S0 .f32 0x46800000#32))
/-- One maximum over both tile axes, from -∞. -/
def refMax (x : FVec Ideal SX .f32) : FVec Ideal SO .f32 :=
  Host.reduce FloatOps.maximumf (shapeCast S6 x hc) (constant (F := Ideal) S0 .f32 0xFF800000#32) hr h0
/-- One minimum over both tile axes, from +∞. -/
def refMin (x : FVec Ideal SX .f32) : FVec Ideal SO .f32 :=
  Host.reduce FloatOps.minimumf (shapeCast S6 x hc) (constant (F := Ideal) S0 .f32 0x7F800000#32) hr h0
end Ref

/-! ## From the three statistics to the result -/

/-- The shape relations the closing operations ask for (each holds by computation at these literal shapes). -/
structure TailFacts : Prop where
  s0 : SO.Slices ![0, 0, 0, 0] SC
  s1 : SO.Slices ![0, 1, 0, 0] SC
  s2 : SO.Slices ![0, 2, 0, 0] SC
  cast : SC.ShapeCasts SP
  bcast : S0.BroadcastsInDim SP (![] : Fin 0 → Fin SP.rank)
  red : SP.ReducesTo [0, 1, 2] S0
  pos : 0 < S0.numel
  cast1 : S0.ShapeCasts S1

variable {F : FTy → Type} [FloatOps F]

/-- One channel of a statistic: the slice at channel offset `off`, its unit axis dropped. -/
def chan (h : TailFacts) (off : Fin 4 → Nat) (hs : SO.Slices off SC) (a : FVec F SO .f32) : FVec F SP .f32 :=
  shapeCast SP (extractStridedSlice SC off a hs) h.cast

/-- One pair term: the squared difference of the two channels' means, zero where the channels' value ranges do not
    overlap (`mnI > mxJ` or `mxI < mnJ`). -/
def pairTerm (h : TailFacts) (mnI mxJ mxI mnJ meanI meanJ : FVec F SP .f32) : FVec F SP .f32 :=
  select (ori (cmpf .ogt mnI mxJ) (cmpf .olt mxI mnJ))
    (broadcastInDim SP ![] h.bcast (id (constant (F := F) S0 .f32 0x00000000#32)))
    (mulf (subf meanI meanJ) (subf meanI meanJ))

/-- The result from the three statistics: the pair terms of (0, 1), (1, 2), (0, 2) added, summed over every position
    from zero, divided by 64, as a one-element vector. -/
def tail (h : TailFacts) (mean mx mn : FVec F SO .f32) : FVec F S1 .f32 :=
  shapeCast S1 (Host.divf (Host.reduceAdd
    (addf (addf
      (pairTerm h (chan h _ h.s0 mn) (chan h _ h.s1 mx) (chan h _ h.s0 mx) (chan h _ h.s1 mn) (chan h _ h.s0 mean) (chan h _ h.s1 mean))
      (pairTerm h (chan h _ h.s1 mn) (chan h _ h.s2 mx) (chan h _ h.s1 mx) (chan h _ h.s2 mn) (chan h _ h.s1 mean) (chan h _ h.s2 mean)))
      (pairTerm h (chan h _ h.s0 mn) (chan h _ h.s2 mx) (chan h _ h.s0 mx) (chan h _ h.s2 mn) (chan h _ h.s0 mean) (chan h _ h.s2 mean)))
    (constant (F := F) S0 .f32 0x00000000#32) h.red h.pos) (constant (F := F) S0 .f32 0x42800000#32)) h.cast1

/-! ## The shape relations hold (by computation at the literal shapes) -/

theorem castX : SX.ShapeCasts S6 := by decide
theorem redX : S6.ReducesTo [3, 5] SO := by decide
theorem pos0 : 0 < S0.numel := by decide
theorem bcastO : S0.BroadcastsInDim SO (![] : Fin 0 → Fin SO.rank) := by decide
theorem tailFacts : TailFacts := ⟨by decide, by decide, by decide, by decide, by decide, by decide, by decide, by decide⟩

end Cert.Spec

end
-- ==== Proof.KIResult.lean ====
/-
  The kernel program's result, at any float family: the closing function of its three output arrays.

  After the region the host lines read the three output arrays and nothing else of what the region wrote; composed,
  they are `tail` of the three arrays, operation for operation. With each array known as the body's stored value at
  every position, the run ends with the result buffer at `tail` of those three array functions of the input, and
  the input unchanged.
-/
import proofs.«145214_j73358041416354_1_alg».proof.Proof.KIValue
import proofs.«145214_j73358041416354_1_alg».proof.Proof.Spec
import Idealize.ShloMosaic.Lib.StableHlo.Run

set_option maxRecDepth 16384

noncomputable section

namespace Cert.KernelIdeal.Frame

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.Spec

variable {F : FTy → Type} [FloatOps F]
variable (m : (ℓ : Loc nD τ sig) → Buf (Elt F) ℓ) (ρ : Dev nD → PrngReg)

set_option maxHeartbeats 4000000 in
/-- What the later lines leave in the result buffer: `tail` of the region's three output arrays. -/
theorem result_eq (c : Dev nD) :
    Pipeline.afterTail₀ cfgs (dats m) 0 (V0 m) tailOps c main_v59
      = tail (F := F) tailFacts ((dats m 0 c).arrAt 1 cfg0.N) ((dats m 0 c).arrAt 2 cfg0.N) ((dats m 0 c).arrAt 3 cfg0.N) := by
  unfold Pipeline.afterTail₀
  show StableHlo.after (List.flatten tailOps) _ (Proc.devRef .tc main_v59) = _
  simp only [tailOps, hostOps1, hostOps1_1, hostOps1_2, hostOps1_3, hostOps1_4, hostOps1_5, hostOps1_6,
    List.flatten_cons, List.flatten_nil, List.append_nil, List.cons_append, List.nil_append]
  after_results_simp
  have e1 : Pipeline.withArrays (cfgs 0).spec c (V0 m c) (fun w => (dats m 0 c).arrAt w (cfgs 0).N) (Proc.devRef .tc main_v0_0)
      = (dats m 0 c).arrAt 1 cfg0.N := Pipeline.withArrays_arr spec0 launch0.win.arr_inj c _ _ 1
  have e2 : Pipeline.withArrays (cfgs 0).spec c (V0 m c) (fun w => (dats m 0 c).arrAt w (cfgs 0).N) (Proc.devRef .tc main_v0_1)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_2)
      = (dats m 0 c).arrAt 3 cfg0.N := Pipeline.withArrays_arr spec0 launch0.win.arr_inj c _ _ 3
  rw [e1, e2, e3]
  generalize (dats m 0 c).arrAt 1 cfg0.N = A1
  generalize (dats m 0 c).arrAt 2 cfg0.N = A2
  generalize (dats m 0 c).arrAt 3 cfg0.N = A3
  unfold tail pairTerm chan
  simp only [TRef.ofBuf, TRef.toBuf, cast_eq]
  rfl

/-- The run, read: the result buffer ends at `tail` of the three array functions of the input (the body's stored
    mean, maximum and minimum at every position), and the input array ends as launched. -/
theorem run_result : θ_run defs (onTc (τ := τ) (main (F := F))) ⟨m, fun _ => 0, ρ⟩ (fun r => ∀ c : Dev nD,
      r.2.mem ((c.tc : Thread nD τ).loc main_v59)
        = tail (F := F) tailFacts (arrOf k0_pay2 (m ((c.tc : Thread nD τ).loc main_arg0)))
            (arrOf k0_pay3 (m ((c.tc : Thread nD τ).loc main_arg0))) (arrOf k0_pay4 (m ((c.tc : Thread nD τ).loc main_arg0)))
      ∧ r.2.mem ((c.tc : Thread nD τ).loc main_arg0) = m ((c.tc : Thread nD τ).loc main_arg0)) :=
  (θ_run defs _ _).mono (fun _ h c =>
      ⟨((h c).2 main_v59 (by decide : main_v59 ∈ Pipeline.restRefs sig spec0)).trans
          ((result_eq m c).trans (by rw [final1 m c, final2 m c, final3 m c, V_main_arg0 m c])),
        ((h c).1 0).trans (((dats m 0 c).arrAt_in 0 rfl _).trans ((A_eq m c 0).trans (V_main_arg0 m c)))⟩)
    (run_main m ρ)

end Cert.KernelIdeal.Frame

end
-- ==== Proof.KerStats.lean ====
/-
  The kernel body's three stored values read at an index: each is its tile's mean, maximum or minimum.

  At grid point b the body is handed image b's [1, 3, 1024, 1024] block. It drops the unit axis, splits the rows
  into (tile, offset) — [3, 8, 128, 1024] —, reduces over the row offset, re-splits the columns into (tile, offset)
  — [3, 8, 8, 128] — and reduces over the column offset: first down a tile's 128 rows, then along its 128 columns.
  For the maximum and the minimum the two stages together range over the tile's entries. For the mean each stage
  divides by 128; on FINITE entries the sum of the row sums over 128, over 128, is the tile's sum over 16384.
-/
import proofs.«145214_j73358041416354_1_alg».proof.Proof.Spec
import proofs.«145214_j73358041416354_1_alg».proof.Proof.Gen.KernelIdeal.Skeleton
import Idealize.ShloMosaic.PureOps.Ideal.Laws
import Idealize.ShloMosaic.PureOps.Reduce
import Idealize.ShloMosaic.Lib.Pipeline.Value
import Idealize.ShloMosaic.Lib.ValueLayout

noncomputable section

namespace Cert.KernelIdeal.Stats

open Idealize.ShloMosaic Idealize.ShloMosaic.ValueIdx Cert.Spec Cert.KernelIdeal Cert.KernelIdeal.Gen

/-! ## The literals, the layout steps and the one-axis reductions read at an index -/

theorem ofBits_negInf_f32 : Ideal.ofBits .f32 0xFF800000#32 = (⊥ : EReal) := by simp [Ideal.ofBits, Ideal.ieee]
theorem ofBits_posInf_f32 : Ideal.ofBits .f32 0x7F800000#32 = (⊤ : EReal) := by simp [Ideal.ofBits, Ideal.ieee]
theorem ofBits_128_f32 : Ideal.ofBits .f32 0x43000000#32 = ((128 : ℝ) : EReal) := by
  simp [Ideal.ofBits, Ideal.ieee]
  rw [← EReal.coe_mul]
  norm_num
theorem ofBits_16384_f32 : Ideal.ofBits .f32 0x46800000#32 = ((16384 : ℝ) : EReal) := by
  simp [Ideal.ofBits, Ideal.ieee]
  rw [← EReal.coe_mul]
  norm_num

/-- The block with its unit axis dropped and its rows split: (c, i, p, w) of the [3, 8, 128, 1024] cast is
    (0, c, 128 i + p, w) of the block. -/
theorem pay1_apply (v0 : FVec Ideal S1x3x1024x1024 .f32) (c : Fin 3) (i : Fin 8) (p : Fin 128) (w : Fin 1024) :
    k0_pay1 (F := Ideal) v0 (ix4 c i p w) = v0 (ix4 (0 : Fin 1) c (pos i p) w) := by
  unfold k0_pay1
  refine (shapeCast_apply _ _ _ (ix3 c (pos i p) w) ?_).trans ?_
  · rw [Shape.rowMajor_val_three, Shape.rowMajor_val_four]
    show (c.val * 1024 + (128 * i.val + p.val)) * 1024 + w.val = ((c.val * 8 + i.val) * 128 + p.val) * 1024 + w.val
    omega
  · exact shapeCast_1abc_abc_apply _ _ _ _ _

/-- The reduced index (c, i, w) with row offset p put back on axis 2 is (c, i, p, w). -/
theorem lift_rows (h : S3x8x128x1024.Reduces [2] S3x8x1024) (c : Fin 3) (i : Fin 8) (w : Fin 1024)
    (k : Fin (S3x8x128x1024.size 2)) : h.lift (ix3 c i w) k = ix4 c i (⟨k.val, k.isLt⟩ : Fin 128) w := by
  funext a; apply Fin.ext
  fin_cases a <;> rfl

/-- The reduced index (c, i, j) with column offset q put back on axis 3 is (c, i, j, q). -/
theorem lift_cols (h : S3x8x8x128.Reduces [3] S3x8x8) (c : Fin 3) (i j : Fin 8)
    (k : Fin (S3x8x8x128.size 3)) : h.lift (ix3 c i j) k = ix4 c i j (⟨k.val, k.isLt⟩ : Fin 128) := by
  funext a; apply Fin.ext
  fin_cases a <;> rfl

/-- The column re-split: (c, i, j, q) of the [3, 8, 8, 128] cast is (c, i, 128 j + q) of the [3, 8, 1024] operand. -/
theorem splitCols_apply {α : Type} (y : S3x8x1024.Idx → α) (h : S3x8x1024.ShapeCasts S3x8x8x128) (c : Fin 3) (i j : Fin 8) (q : Fin 128) :
    shapeCast S3x8x8x128 y h (ix4 c i j q) = y (ix3 c i (pos j q)) := by
  refine shapeCast_apply _ _ _ _ ?_
  rw [Shape.rowMajor_val_three, Shape.rowMajor_val_four]
  show (c.val * 8 + i.val) * 1024 + (128 * j.val + q.val) = ((c.val * 8 + i.val) * 8 + j.val) * 128 + q.val
  omega

/-- A fold of max from ⊥ is the supremum; a fold of min from ⊤ the infimum. -/
theorem fold_max_eq_sup {ι : Type} (s : Finset ι) (f : ι → EReal) : s.fold max (⊥ : EReal) f = s.sup f := rfl
theorem fold_min_eq_inf {ι : Type} (s : Finset ι) (f : ι → EReal) : s.fold min (⊤ : EReal) f = s.inf f := rfl

/-- A minimum reduction over one axis is the fold of min from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The supremum over the columns of the suprema down the rows is the supremum over the tile. -/
theorem sup_cols_sup_rows (e : Fin 128 → Fin 128 → EReal) :
    Finset.univ.sup (fun q : Fin 128 => Finset.univ.sup (fun p : Fin 128 => e p q))
      = Finset.univ.sup (fun pq : Fin 128 × Fin 128 => e pq.1 pq.2) := by
  rw [← Finset.univ_product_univ, Finset.sup_product_right]

theorem inf_cols_inf_rows (e : Fin 128 → Fin 128 → EReal) :
    Finset.univ.inf (fun q : Fin 128 => Finset.univ.inf (fun p : Fin 128 => e p q))
      = Finset.univ.inf (fun pq : Fin 128 × Fin 128 => e pq.1 pq.2) := by
  rw [← Finset.univ_product_univ, Finset.inf_product_right]

theorem maxRows_apply (src : FVec Ideal S3x8x128x1024 .f32) (h : S3x8x128x1024.Reduces [2] S3x8x1024)
    (hφ : FKind.Formats .f32) (hacc : (0xFF800000#32 : BitVec 32) = FKind.maximumf.neutral .f32 hφ)
    (c : Fin 3) (i : Fin 8) (w : Fin 1024) :
    multiReduction (F := Ideal) .maximumf [2] S3x8x1024 src 0xFF800000#32 h hφ hacc (ix3 c i w)
      = Finset.univ.sup (fun p : Fin 128 => src (ix4 c i p w)) := by
  refine (Ideal.multiReduction_maximumf_single src _ h hφ hacc _).trans ?_
  have hf : (src ∘ h.lift (ix3 c i w)) = fun p : Fin 128 => src (ix4 c i p w) :=
    funext fun k => congrArg src (lift_rows h c i w k)
  rw [hf]
  show Finset.fold max (Ideal.ofBits .f32 0xFF800000#32) _ _ = _
  rw [ofBits_negInf_f32]
  exact fold_max_eq_sup _ _

theorem maxCols_apply (src : FVec Ideal S3x8x8x128 .f32) (h : S3x8x8x128.Reduces [3] S3x8x8)
    (hφ : FKind.Formats .f32) (hacc : (0xFF800000#32 : BitVec 32) = FKind.maximumf.neutral .f32 hφ)
    (c : Fin 3) (i j : Fin 8) :
    multiReduction (F := Ideal) .maximumf [3] S3x8x8 src 0xFF800000#32 h hφ hacc (ix3 c i j)
      = Finset.univ.sup (fun q : Fin 128 => src (ix4 c i j q)) := by
  refine (Ideal.multiReduction_maximumf_single src _ h hφ hacc _).trans ?_
  have hf : (src ∘ h.lift (ix3 c i j)) = fun q : Fin 128 => src (ix4 c i j q) :=
    funext fun k => congrArg src (lift_cols h c i j k)
  rw [hf]
  show Finset.fold max (Ideal.ofBits .f32 0xFF800000#32) _ _ = _
  rw [ofBits_negInf_f32]
  exact fold_max_eq_sup _ _

theorem minRows_apply (src : FVec Ideal S3x8x128x1024 .f32) (h : S3x8x128x1024.Reduces [2] S3x8x1024)
    (hφ : FKind.Formats .f32) (hacc : (0x7F800000#32 : BitVec 32) = FKind.minimumf.neutral .f32 hφ)
    (c : Fin 3) (i : Fin 8) (w : Fin 1024) :
    multiReduction (F := Ideal) .minimumf [2] S3x8x1024 src 0x7F800000#32 h hφ hacc (ix3 c i w)
      = Finset.univ.inf (fun p : Fin 128 => src (ix4 c i p w)) := by
  refine (multiReduction_minimumf_single src _ h hφ hacc _).trans ?_
  have hf : (src ∘ h.lift (ix3 c i w)) = fun p : Fin 128 => src (ix4 c i p w) :=
    funext fun k => congrArg src (lift_rows h c i w k)
  rw [hf]
  show Finset.fold min (Ideal.ofBits .f32 0x7F800000#32) _ _ = _
  rw [ofBits_posInf_f32]
  exact fold_min_eq_inf _ _

theorem minCols_apply (src : FVec Ideal S3x8x8x128 .f32) (h : S3x8x8x128.Reduces [3] S3x8x8)
    (hφ : FKind.Formats .f32) (hacc : (0x7F800000#32 : BitVec 32) = FKind.minimumf.neutral .f32 hφ)
    (c : Fin 3) (i j : Fin 8) :
    multiReduction (F := Ideal) .minimumf [3] S3x8x8 src 0x7F800000#32 h hφ hacc (ix3 c i j)
      = Finset.univ.inf (fun q : Fin 128 => src (ix4 c i j q)) := by
  refine (multiReduction_minimumf_single src _ h hφ hacc _).trans ?_
  have hf : (src ∘ h.lift (ix3 c i j)) = fun q : Fin 128 => src (ix4 c i j q) :=
    funext fun k => congrArg src (lift_cols h c i j k)
  rw [hf]
  show Finset.fold min (Ideal.ofBits .f32 0x7F800000#32) _ _ = _
  rw [ofBits_posInf_f32]
  exact fold_min_eq_inf _ _

/-- A finite sum of reals, coerced term by term, is the coercion of the real sum. -/
theorem coe_sum {ι : Type} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- Division by the literal 128 is multiplication by 1/128, by the literal 16384 by 1/16384. -/
theorem div_128 (a : EReal) : Ideal.div a (Ideal.ofBits .f32 0x43000000#32) = a * (((1 / 128 : ℝ)) : EReal) := by
  rw [ofBits_128_f32]; exact Ideal.div_coe (by norm_num) a
theorem div_16384 (a : EReal) : Ideal.div a (Ideal.ofBits .f32 0x46800000#32) = a * (((1 / 16384 : ℝ)) : EReal) := by
  rw [ofBits_16384_f32]; exact Ideal.div_coe (by norm_num) a

/-- On real entries: the column sums of (the row sums over 128), over 128, is the tile's sum over 16384. -/
theorem mean_two_stage (r : Fin 128 → Fin 128 → ℝ) :
    Ideal.div (∑ q : Fin 128, Ideal.div (∑ p : Fin 128, ((r p q : ℝ) : EReal)) (Ideal.ofBits .f32 0x43000000#32))
        (Ideal.ofBits .f32 0x43000000#32)
      = Ideal.div (∑ pq : Fin 128 × Fin 128, ((r pq.1 pq.2 : ℝ) : EReal)) (Ideal.ofBits .f32 0x46800000#32) := by
  rw [div_128, div_16384, coe_sum]
  have h1 : ∀ q : Fin 128, Ideal.div (∑ p : Fin 128, ((r p q : ℝ) : EReal)) (Ideal.ofBits .f32 0x43000000#32)
      = (((∑ p : Fin 128, r p q) * (1 / 128) : ℝ) : EReal) := fun q => by
    rw [div_128, coe_sum, ← EReal.coe_mul]
  rw [Finset.sum_congr rfl fun q _ => h1 q, coe_sum, ← EReal.coe_mul, ← EReal.coe_mul]
  congr 1
  rw [Fintype.sum_prod_type_right, ← Finset.sum_mul, mul_assoc]
  norm_num

theorem addRows_apply (src : FVec Ideal S3x8x128x1024 .f32) (h : S3x8x128x1024.Reduces [2] S3x8x1024)
    (hφ : FKind.Formats .f32) (hacc : (0x00000000#32 : BitVec 32) = FKind.add.neutral .f32 hφ)
    (c : Fin 3) (i : Fin 8) (w : Fin 1024) :
    multiReduction (F := Ideal) .add [2] S3x8x1024 src 0x00000000#32 h hφ hacc (ix3 c i w)
      = ∑ p : Fin 128, src (ix4 c i p w) := by
  refine (Ideal.multiReduction_add_single src _ h hφ hacc _).trans ?_
  exact Finset.sum_congr rfl fun k _ => congrArg src (lift_rows h c i w k)

theorem addCols_apply (src : FVec Ideal S3x8x8x128 .f32) (h : S3x8x8x128.Reduces [3] S3x8x8)
    (hφ : FKind.Formats .f32) (hacc : (0x00000000#32 : BitVec 32) = FKind.add.neutral .f32 hφ)
    (c : Fin 3) (i j : Fin 8) :
    multiReduction (F := Ideal) .add [3] S3x8x8 src 0x00000000#32 h hφ hacc (ix3 c i j)
      = ∑ q : Fin 128, src (ix4 c i j q) := by
  refine (Ideal.multiReduction_add_single src _ h hφ hacc _).trans ?_
  exact Finset.sum_congr rfl fun k _ => congrArg src (lift_cols h c i j k)

/-- The first stage of the mean read after the column re-split: at (c, i, j, q) the sum down the 128 rows of tile row i
    at column 128 j + q, over 128. -/
theorem meanRows_apply (src : FVec Ideal S3x8x128x1024 .f32) (h : S3x8x128x1024.Reduces [2] S3x8x1024)
    (hφ : FKind.Formats .f32) (hacc : (0x00000000#32 : BitVec 32) = FKind.add.neutral .f32 hφ)
    (hc : S3x8x1024.ShapeCasts S3x8x8x128) (c : Fin 3) (i j : Fin 8) (q : Fin 128) :
    shapeCast S3x8x8x128 (divf (multiReduction (F := Ideal) .add [2] S3x8x1024 src 0x00000000#32 h hφ hacc)
        (broadcast S3x8x1024 (Scalar.ofBits (F := Ideal) .f32 0x43000000#32))) hc (ix4 c i j q)
      = Ideal.div (∑ p : Fin 128, src (ix4 c i p (pos j q))) (Ideal.ofBits .f32 0x43000000#32) := by
  refine (splitCols_apply _ _ c i j q).trans ?_
  refine (divf_apply _ _ _).trans ?_
  exact congrArg₂ Ideal.div (addRows_apply _ _ _ _ c i (pos j q)) rfl

/-! ## The three stored values -/

theorem payMean_apply (x : FVec Ideal SX .f32) (hfin : ∀ idx, ∃ r : ℝ, x idx = (r : EReal))
    (b : Fin 32) (c : Fin 3) (i j : Fin 8) :
    k0_pay2 (F := Ideal) (block x b) (ix4 (0 : Fin 1) c i j) = tileMean x b c i j := by
  choose f hf using hfin
  unfold k0_pay2
  refine (shapeCast_abc_1abc_apply _ _ _ _ _ _).trans ?_
  refine (divf_apply _ _ _).trans ?_
  refine (congrArg₂ Ideal.div (addCols_apply _ _ _ _ c i j) (rfl : _ = Ideal.ofBits .f32 0x43000000#32)).trans ?_
  refine (congrArg (fun s => Ideal.div s (Ideal.ofBits .f32 0x43000000#32))
    (Finset.sum_congr (g := fun q : Fin 128 => Ideal.div (∑ p : Fin 128, ((f (ix4 b c (pos i p) (pos j q)) : ℝ) : EReal))
      (Ideal.ofBits .f32 0x43000000#32)) rfl fun q _ => ?_)).trans ?_
  · refine (meanRows_apply _ _ _ _ _ c i j q).trans ?_
    exact congrArg (fun s => Ideal.div s (Ideal.ofBits .f32 0x43000000#32))
      (Finset.sum_congr rfl fun p _ => (pay1_apply (block x b) c i p (pos j q)).trans (hf _))
  · refine (mean_two_stage fun p q => f (ix4 b c (pos i p) (pos j q))).trans ?_
    unfold tileMean tileSum
    exact congrArg (fun s => Ideal.div s (Ideal.ofBits .f32 0x46800000#32))
      (Finset.sum_congr rfl fun pq _ => (hf _).symm)

theorem payMax_apply (x : FVec Ideal SX .f32) (b : Fin 32) (c : Fin 3) (i j : Fin 8) :
    k0_pay3 (F := Ideal) (block x b) (ix4 (0 : Fin 1) c i j) = tileMax x b c i j := by
  unfold k0_pay3
  refine (shapeCast_abc_1abc_apply _ _ _ _ _ _).trans ?_
  refine (maxCols_apply _ _ _ _ c i j).trans ?_
  unfold tileMax
  rw [← sup_cols_sup_rows (fun p q => ent x b c i j (p, q))]
  refine Finset.sup_congr rfl fun q _ => ?_
  refine (splitCols_apply _ _ c i j q).trans ?_
  refine (maxRows_apply _ _ _ _ c i (pos j q)).trans ?_
  refine Finset.sup_congr rfl fun p _ => ?_
  exact pay1_apply (block x b) c i p (pos j q)

theorem payMin_apply (x : FVec Ideal SX .f32) (b : Fin 32) (c : Fin 3) (i j : Fin 8) :
    k0_pay4 (F := Ideal) (block x b) (ix4 (0 : Fin 1) c i j) = tileMin x b c i j := by
  unfold k0_pay4
  refine (shapeCast_abc_1abc_apply _ _ _ _ _ _).trans ?_
  refine (minCols_apply _ _ _ _ c i j).trans ?_
  unfold tileMin
  rw [← inf_cols_inf_rows (fun p q => ent x b c i j (p, q))]
  refine Finset.inf_congr rfl fun q _ => ?_
  refine (splitCols_apply _ _ c i j q).trans ?_
  refine (minRows_apply _ _ _ _ c i (pos j q)).trans ?_
  refine Finset.inf_congr rfl fun p _ => ?_
  exact pay1_apply (block x b) c i p (pos j q)

end Cert.KernelIdeal.Stats

end
-- ==== Proof.RefStats.lean ====
/-
  The reference's three statistics read at an index: each is its tile's sum (divided by 16384), maximum or minimum.

  The reference reshapes the input to [32, 3, 8, 128, 8, 128] — entry (b, c, i, p, j, q) of the reshaped array is
  `x[b, c, 128 i + p, 128 j + q]` — and reduces over axes 3 and 5 at once. The positions reduced into result index
  (b, c, i, j) are exactly the (b, c, i, p, j, q) with p, q < 128, one for each entry of tile (i, j).
-/
import proofs.«145214_j73358041416354_1_alg».proof.Proof.Spec
import Idealize.ShloMosaic.PureOps.Ideal.Laws
import Idealize.ShloMosaic.PureOps.Reduce
import Idealize.ShloMosaic.Lib.Pipeline.Value
import Idealize.ShloMosaic.Lib.ValueIdxRank6
import Idealize.ShloMosaic.Lib.IdealHost

noncomputable section

namespace Cert.Spec

open Idealize.ShloMosaic Idealize.ShloMosaic.ValueIdx

variable (hc : SX.ShapeCasts S6) (hr : S6.ReducesTo [3, 5] SO) (h0 : 0 < S0.numel)
  (hb : S0.BroadcastsInDim SO (![] : Fin 0 → Fin SO.rank))

/-- Position (p, q) of tile (i, j) of image (b, c), as an index of the reshaped array. -/
def tileIdx (b : Fin 32) (c : Fin 3) (i j : Fin 8) (pq : Fin 128 × Fin 128) : S6.Idx := ix6 b c i pq.1 j pq.2

/-- Distinct positions of a tile are distinct indices of the reshaped array: they differ on axis 3 or on axis 5. -/
theorem tileIdx_injective (b : Fin 32) (c : Fin 3) (i j : Fin 8) : Function.Injective (tileIdx b c i j) := by
  intro pq pq' e
  have e3 := congrFun e 3
  have e5 := congrFun e 5
  exact Prod.ext e3 e5

/-- The reshaped array at (b, c, i, p, j, q) is entry (p, q) of tile (i, j): both indices have the row-major position
    ((((b · 3 + c) · 8 + i) · 128 + p) · 8 + j) · 128 + q = ((b · 3 + c) · 1024 + 128 i + p) · 1024 + 128 j + q. -/
theorem shapeCast_tileIdx (x : FVec Ideal SX .f32) (b : Fin 32) (c : Fin 3) (i j : Fin 8) (pq : Fin 128 × Fin 128) :
    shapeCast S6 x hc (tileIdx b c i j pq) = ent x b c i j pq := by
  refine shapeCast_apply x hc _ (ix4 b c (pos i pq.1) (pos j pq.2)) ?_
  rw [Shape.rowMajor_val_four, Shape.rowMajor_val_six]
  show ((b.val * 3 + c.val) * 1024 + (128 * i.val + pq.1.val)) * 1024 + (128 * j.val + pq.2.val)
    = ((((b.val * 3 + c.val) * 8 + i.val) * 128 + pq.1.val) * 8 + j.val) * 128 + pq.2.val
  omega

/-- Dropping axes 3 and 5 keeps coordinates 0, 1, 2 and 4: an index of the reshaped array drops to (b, c, i, j) exactly
    when those four coordinates are b, c, i, j. -/
theorem drop_eq_iff (i6 : S6.Idx) (b : Fin 32) (c : Fin 3) (i j : Fin 8) :
    hr.drop i6 = ix4 b c i j ↔ ((i6 0).val = b.val ∧ (i6 1).val = c.val ∧ (i6 2).val = i.val ∧ (i6 4).val = j.val) := by
  have h0 := hr.drop_apply_val_of_eq i6 (0 : Fin 4) (0 : Fin 6)
  have h1 := hr.drop_apply_val_of_eq i6 (1 : Fin 4) (1 : Fin 6)
  have h2 := hr.drop_apply_val_of_eq i6 (2 : Fin 4) (2 : Fin 6)
  have h3 := hr.drop_apply_val_of_eq i6 (3 : Fin 4) (4 : Fin 6)
  constructor
  · intro e
    rw [e] at h0 h1 h2 h3
    exact ⟨h0.symm, h1.symm, h2.symm, h3.symm⟩
  · rintro ⟨e0, e1, e2, e3⟩
    funext a
    apply Fin.ext
    match a with
    | ⟨0, _⟩ => exact h0.trans e0
    | ⟨1, _⟩ => exact h1.trans e1
    | ⟨2, _⟩ => exact h2.trans e2
    | ⟨3, _⟩ => exact h3.trans e3

/-- The indices reduced into result index (b, c, i, j) are exactly the positions of tile (i, j) of image (b, c). -/
theorem filter_drop_eq_image (b : Fin 32) (c : Fin 3) (i j : Fin 8) :
    (Finset.univ.filter fun i6 : S6.Idx => hr.drop i6 = ix4 b c i j) = Finset.univ.image (tileIdx b c i j) := by
  ext i6
  simp only [Finset.mem_filter, Finset.mem_univ, true_and, Finset.mem_image]
  rw [drop_eq_iff]
  constructor
  · rintro ⟨e0, e1, e2, e4⟩
    refine ⟨(i6 3, i6 5), funext fun a => Fin.ext ?_⟩
    match a with
    | ⟨0, _⟩ => exact e0.symm
    | ⟨1, _⟩ => exact e1.symm
    | ⟨2, _⟩ => exact e2.symm
    | ⟨3, _⟩ => rfl
    | ⟨4, _⟩ => exact e4.symm
    | ⟨5, _⟩ => rfl
  · rintro ⟨pq, rfl⟩
    exact ⟨rfl, rfl, rfl, rfl⟩

/-- The bit pattern of -∞ is the bottom of the extended reals, that of +∞ its top. -/
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]

theorem refMean_apply (x : FVec Ideal SX .f32) (b : Fin 32) (c : Fin 3) (i j : Fin 8) :
    refMean hc hr h0 hb x (ix4 b c i j) = tileMean x b c i j := by
  unfold refMean tileMean tileSum
  rw [hostDivf_apply, hostReduceAdd_apply, broadcastInDim_scalar_apply, constant_apply, constant_apply]
  unfold Ideal.hostReduceAdd
  rw [filter_drop_eq_image hr, Finset.sum_image (fun _ _ _ _ e => tileIdx_injective b c i j e),
    Ideal.ofBits_zero_f32, zero_add]
  exact congrArg (fun s => Ideal.div s _) (Finset.sum_congr rfl fun pq _ => shapeCast_tileIdx hc x b c i j pq)

theorem refMax_apply (x : FVec Ideal SX .f32) (b : Fin 32) (c : Fin 3) (i j : Fin 8) :
    refMax hc hr h0 x (ix4 b c i j) = tileMax x b c i j := by
  unfold refMax tileMax
  rw [Host.reduce_eq_fold, filter_drop_eq_image hr, Finset.fold_image (fun _ _ _ _ e => tileIdx_injective b c i j e)]
  have hf : (shapeCast S6 x hc ∘ tileIdx b c i j) = ent x b c i j := funext (shapeCast_tileIdx hc x b c i j)
  rw [hf, constant_apply, ofBits_neg_inf_f32]
  rfl

theorem refMin_apply (x : FVec Ideal SX .f32) (b : Fin 32) (c : Fin 3) (i j : Fin 8) :
    refMin hc hr h0 x (ix4 b c i j) = tileMin x b c i j := by
  unfold refMin tileMin
  rw [Host.reduce_eq_fold, filter_drop_eq_image hr, Finset.fold_image (fun _ _ _ _ e => tileIdx_injective b c i j e)]
  have hf : (shapeCast S6 x hc ∘ tileIdx b c i j) = ent x b c i j := funext (shapeCast_tileIdx hc x b c i j)
  rw [hf, constant_apply, ofBits_pos_inf_f32]
  rfl

end Cert.Spec

end
-- ==== Proof.Bridge.lean ====
/-
  The two programs' tile statistics are the same arrays, on a finite input.

  At position (b, c, i, j) the kernel's stored value, computed from image b's block in two stages, and the
  reference's single reduction over both tile axes are both the statistic of tile (i, j) of image (b, c): its
  maximum, its minimum, and — every entry being a real — its mean.
-/
import proofs.«145214_j73358041416354_1_alg».proof.Proof.KIValue
import proofs.«145214_j73358041416354_1_alg».proof.Proof.KerStats
import proofs.«145214_j73358041416354_1_alg».proof.Proof.RefStats

noncomputable section

namespace Cert.KernelIdeal.Bridge

open Idealize.ShloMosaic Idealize.ShloMosaic.ValueIdx
open Cert.KernelIdeal Cert.KernelIdeal.Gen Cert.KernelIdeal.Frame Cert.KernelIdeal.Stats Cert.Spec

/-- The array function at a literal position: the stored value of that image's block. -/
theorem arrOf_ix4 (pay : Vec Ideal S1x3x1024x1024 .f32 → FVec Ideal S1x3x8x8 .f32) (x : FVec Ideal SX .f32)
    (b : Fin 32) (c : Fin 3) (i j : Fin 8) :
    arrOf (F := Ideal) pay x (ix4 b c i j) = pay (block x b) (ix4 (0 : Fin 1) c i j) := rfl

/-- The kernel's mean array is the reference's, on an input whose entries are all real. -/
theorem mean_eq (x : FVec Ideal SX .f32) (hfin : ∀ idx, ∃ r : ℝ, x idx = (r : EReal)) :
    arrOf (F := Ideal) k0_pay2 x = refMean castX redX pos0 bcastO x := by
  funext e
  obtain ⟨b, c, i, j, rfl⟩ : ∃ (b : Fin 32) (c : Fin 3) (i j : Fin 8), e = ix4 b c i j := ⟨e 0, e 1, e 2, e 3, eq_ix4 e⟩
  rw [arrOf_ix4]
  exact (payMean_apply x hfin b c i j).trans (refMean_apply castX redX pos0 bcastO x b c i j).symm

/-- The kernel's maximum array is the reference's. -/
theorem max_eq (x : FVec Ideal SX .f32) : arrOf (F := Ideal) k0_pay3 x = refMax castX redX pos0 x := by
  funext e
  obtain ⟨b, c, i, j, rfl⟩ : ∃ (b : Fin 32) (c : Fin 3) (i j : Fin 8), e = ix4 b c i j := ⟨e 0, e 1, e 2, e 3, eq_ix4 e⟩
  rw [arrOf_ix4]
  exact (payMax_apply x b c i j).trans (refMax_apply castX redX pos0 x b c i j).symm

/-- The kernel's minimum array is the reference's. -/
theorem min_eq (x : FVec Ideal SX .f32) : arrOf (F := Ideal) k0_pay4 x = refMin castX redX pos0 x := by
  funext e
  obtain ⟨b, c, i, j, rfl⟩ : ∃ (b : Fin 32) (c : Fin 3) (i j : Fin 8), e = ix4 b c i j := ⟨e 0, e 1, e 2, e 3, eq_ix4 e⟩
  rw [arrOf_ix4]
  exact (payMin_apply x b c i j).trans (refMin_apply castX redX pos0 x b c i j).symm

end Cert.KernelIdeal.Bridge

end
-- ==== Proof.RefRun.lean ====
/-
  The reference program's run and its stages read one operation at a time: the generated modules, gathered
  under one import for the modules that compare the reference's result with the kernel's.
-/
import proofs.«145214_j73358041416354_1_alg».proof.Proof.Gen.ReferenceIdeal.Run
import proofs.«145214_j73358041416354_1_alg».proof.Proof.Gen.ReferenceIdeal.Read
-- ==== Proof.RefValue.lean ====
/-
  The reference program's result is the closing function of its three tile statistics.

  The reference's run ends with its result at one composed term of the input: the reshape, the three reductions over
  both tile axes, and then the closing operations. Those closing operations are exactly `tail` of the three
  statistics, operation for operation; nothing is computed to see it.
-/
import proofs.«145214_j73358041416354_1_alg».proof.Proof.RefRun
import proofs.«145214_j73358041416354_1_alg».proof.Proof.Spec

noncomputable section

namespace Cert.ReferenceIdeal.RefValue

open Idealize.ShloMosaic Idealize.ShloMosaic.TcCoe Idealize.SL.Sem
open Cert.ReferenceIdeal Cert.ReferenceIdeal.Gen Cert.Spec

set_option maxRecDepth 16384 in
/-- The run's result term is `tail` of the reference's mean, maximum and minimum arrays. -/
theorem res_eq (m : (ℓ : Loc nD τ sig) → Buf (Elt Ideal) ℓ) (c : Dev nD) :
    Cert.ReferenceIdeal.Value.res_main_v64 (F := Ideal) m c
      = tail (F := Ideal) tailFacts (refMean castX redX pos0 bcastO (m ((c.tc : Thread nD τ).loc main_arg0)))
          (refMax castX redX pos0 (m ((c.tc : Thread nD τ).loc main_arg0)))
          (refMin castX redX pos0 (m ((c.tc : Thread nD τ).loc main_arg0))) := by
  unfold Cert.ReferenceIdeal.Value.res_main_v64 tail pairTerm chan refMean refMax refMin
  rfl

end Cert.ReferenceIdeal.RefValue

end
-- ==== Proof.Finite.lean ====
/-
  From the precondition to the entries: every entry of the input is a real number.

  The precondition is one conjunction over all entries (a reduction by `and` from `true`) of `|x| < +∞`, the
  bound being the float pattern of +∞. Where the conjunction is 1 every conjunct is 1, and an extended real whose
  absolute value lies strictly below ⊤ is neither ⊤ nor ⊥.
-/
import proofs.«145214_j73358041416354_1_alg».proof.Pre_finite_inputs
import proofs.«145214_j73358041416354_1_alg».proof.Proof.Gen.Pre_finite_inputs
import Idealize.ShloMosaic.PureOps.Ideal.Laws
import Idealize.ShloMosaic.Lib.ReduceAll
import Idealize.ShloMosaic.Lib.ValueIdx
import Idealize.ShloMosaic.Lib.Pipeline.Value

noncomputable section

namespace Cert.Finite

open Idealize.ShloMosaic

instance : Subsingleton Cert.Pre_finite_inputs.S_.Idx := ⟨fun a b => funext fun d => d.elim0⟩

/-- The float pattern `0x7F800000` is +∞. -/
theorem top_pattern : Ideal.ofBits .f32 0x7F800000#32 = ⊤ := by simp [Ideal.ofBits, Ideal.ieee]

/-- Under the precondition every entry of the input is (the coercion of) a real. -/
theorem entry_real (x : FVec Ideal Cert.Pre_finite_inputs.S32x3x1024x1024 .f32)
    (h : Cert.Pre_finite_inputs.fn (F := Ideal) x = fun _ => 1#1) (i : Cert.Pre_finite_inputs.S32x3x1024x1024.Idx) :
    ∃ r : ℝ, x i = (r : EReal) := by
  have h0 := congrFun h ValueIdx.ix0
  dsimp only [Cert.Pre_finite_inputs.fn] at h0
  have hi := Host.reduce_andi_all _ _ _ _ _ h0 i
  rw [ValueIdx.cmpf_apply, broadcastInDim_apply ![] _ _ i ValueIdx.ix0 (fun a => a.elim0)] at hi
  change Ideal.cmp .olt (max (x i) (-(x i))) (Ideal.ofBits .f32 0x7F800000#32) = 1#1 at hi
  rw [top_pattern] at hi
  have hlt : max (x i) (-(x i)) < (⊤ : EReal) := by
    by_contra hc
    simp [Ideal.cmp, hc] at hi
  have h1 : x i ≠ ⊤ := fun e => by rw [e] at hlt; simp at hlt
  have h2 : x i ≠ ⊥ := fun e => by rw [e] at hlt; simp at hlt
  exact ⟨(x i).toReal, (EReal.coe_toReal h1 h2).symm⟩

end Cert.Finite

end
-- ==== Proof.lean ====
/-
  The certificate: a Pallas kernel that reduces each 128 × 128 tile of a [32, 3, 1024, 1024] input to its mean, maximum
  and minimum in two stages (down the tile's rows, then along its columns), against a reference that takes each
  statistic by one reduction over both tile axes; both then combine the three [32, 3, 8, 8] arrays by the same closing
  operations into one number.

  The frames. The kernel program is one region followed by host lines; its frame, at the word level and at the ideal
  values alike, is the pipeline's frame run over a body that loads its input block and stores three covering blocks
  (`Frame.frame` in each program's namespace). The reference has no kernel: its frame is its run with the result
  dropped.

  The value. No operation was rewritten when the kernel was idealized, so there is nothing to preserve. At the ideal
  values the kernel program's result is `tail` of the body's stored mean, maximum and minimum at every position, and
  the reference's is `tail` of its three reductions. Position by position the two maxima are the tile's maximum and
  the two minima its minimum, whatever the entries; and since the precondition makes every entry a real, the sum of
  the row sums over 128, over 128, is the tile's sum over 16384, so the two means agree too. The closing function is
  never opened.
-/
import proofs.«145214_j73358041416354_1_alg».proof.Defs
import proofs.«145214_j73358041416354_1_alg».proof.Proof.Gen.Kernel
import proofs.«145214_j73358041416354_1_alg».proof.Proof.Gen.KernelIdeal
import proofs.«145214_j73358041416354_1_alg».proof.Proof.Gen.ReferenceIdeal
import proofs.«145214_j73358041416354_1_alg».proof.Proof.Gen.Pre_finite_inputs
import proofs.«145214_j73358041416354_1_alg».proof.Proof.KFrame
import proofs.«145214_j73358041416354_1_alg».proof.Proof.KIResult
import proofs.«145214_j73358041416354_1_alg».proof.Proof.Bridge
import proofs.«145214_j73358041416354_1_alg».proof.Proof.RefValue
import proofs.«145214_j73358041416354_1_alg».proof.Proof.Finite
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with their result at `tail` of the reference's three statistics of the shared input: the
    reference by its run, the kernel program by its run and the agreement of the statistics on a finite input. -/
theorem algebraic : Cert.algebraic_KernelIdeal_ReferenceIdeal := by
  intro m ρ m' ρ' hpre hagree
  refine ⟨fun c => tail (F := Ideal) tailFacts
      (refMean castX redX pos0 bcastO (m ((c.tc : Thread Cert.KernelIdeal.nD Cert.KernelIdeal.τ).loc Cert.KernelIdeal.main_arg0)))
      (refMax castX redX pos0 (m ((c.tc : Thread Cert.KernelIdeal.nD Cert.KernelIdeal.τ).loc Cert.KernelIdeal.main_arg0)))
      (refMin castX redX pos0 (m ((c.tc : Thread Cert.KernelIdeal.nD Cert.KernelIdeal.τ).loc Cert.KernelIdeal.main_arg0))), ?_, ?_⟩
  · refine (θ_run Cert.KernelIdeal.defs _ _).mono (fun _ h c => ⟨(h c).1.trans ?_, (h c).2⟩)
      (Cert.KernelIdeal.Frame.run_result (F := Ideal) m ρ)
    rw [Cert.KernelIdeal.Bridge.mean_eq _ (Cert.Finite.entry_real _ (hpre c)), Cert.KernelIdeal.Bridge.max_eq,
      Cert.KernelIdeal.Bridge.min_eq]
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
